-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v52)) (v1 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_v53) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v59) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S4096x64x256 : Shape := ⟨3, ![4096, 64, 256]⟩
abbrev S4096x64x2 : Shape := ⟨3, ![4096, 64, 2]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S4096x64x256 : S_.BroadcastsInDim S4096x64x256 (![] : Fin 0 → Fin S4096x64x256.rank)
  reducesTo_S4096x64x256_S_d0_1_2 : S4096x64x256.ReducesTo [0, 1, 2] S_

variable [Facts]

def fn {F : FTy → Type} [FloatOps F] (main_arg0 : FVec F S4096x256 .f32) (main_arg1 : FVec F S4096x64x256 .f32) (main_arg2 : IVec S4096x64x2 32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x64x256 .f32 := Host.absf main_arg1
  let main_cst_0 : FVec F S_ .f32 := constant S_ .f32 0x7F800000#32
  let main_v5 : FVec F S4096x64x256 .f32 := broadcastInDim S4096x64x256 ![] bcast_S_S4096x64x256 main_cst_0
  let main_v6 : IVec S4096x64x256 1 := cmpf .olt main_v4 main_v5
  let main_c_1 : IVec S_ 1 := constantI S_ 1 1#1
  let main_v7 : IVec S_ 1 := (fun x v => Host.reduce IntOp.andi x v reducesTo_S4096x64x256_S_d0_1_2 h_S_) main_v6 main_c_1
  let main_v8 : IVec S_ 1 := andi main_v3 main_v7
  main_v8
-- ==== Kernel.lean ====
abbrev S4096x256 : Shape := ⟨2, ![4096, 256]⟩
abbrev S4096x64x256 : Shape := ⟨3, ![4096, 64, 256]⟩
abbrev S4096x64x2 : Shape := ⟨3, ![4096, 64, 2]⟩
abbrev S5 : Shape := ⟨1, ![5]⟩
abbrev S4096x64x1 : Shape := ⟨3, ![4096, 64, 1]⟩
abbrev S4096x64 : Shape := ⟨2, ![4096, 64]⟩
abbrev S_ : Shape := ⟨0, ![]⟩
abbrev S4096x1 : Shape := ⟨2, ![4096, 1]⟩
abbrev S4096 : Shape := ⟨1, ![4096]⟩
abbrev S128x256 : Shape := ⟨2, ![128, 256]⟩
abbrev S128x64x256 : Shape := ⟨3, ![128, 64, 256]⟩
abbrev S128x64 : Shape := ⟨2, ![128, 64]⟩
abbrev S128x1 : Shape := ⟨2, ![128, 1]⟩
abbrev S128x1x256 : Shape := ⟨3, ![128, 1, 256]⟩
abbrev S128 : Shape := ⟨1, ![128]⟩
abbrev S1x4 : Shape := ⟨2, ![1, 4]⟩
abbrev S4096x4 : Shape := ⟨2, ![4096, 4]⟩
abbrev S4 : Shape := ⟨1, ![4]⟩
abbrev S2x2 : Shape := ⟨2, ![2, 2]⟩
abbrev S5x1 : Shape := ⟨2, ![5, 1]⟩
abbrev S1x4096 : Shape := ⟨2, ![1, 4096]⟩
abbrev S5x4096 : Shape := ⟨2, ![5, 4096]⟩
abbrev S5x4 : Shape := ⟨2, ![5, 4]⟩
abbrev S5x2x2 : Shape := ⟨3, ![5, 2, 2]⟩

abbrev nBuf : Space → Nat
  | .hbm => 76
  | .vmem => 10
  | .smem => 0
  | _ => 0

abbrev bufTy : (tb : Table) → Fin (tcTables nBuf tb) → BufTy
  | .hbm, ⟨0, _⟩ => ⟨S4096x256, .f32⟩
  | .hbm, ⟨1, _⟩ => ⟨S4096x64x256, .f32⟩
  | .hbm, ⟨2, _⟩ => ⟨S4096x64x2, .i32⟩
  | .hbm, ⟨3, _⟩ => ⟨S5, .f32⟩
  | .hbm, ⟨4, _⟩ => ⟨S4096x64x1, .i32⟩
  | .hbm, ⟨5, _⟩ => ⟨S4096x64, .i32⟩
  | .hbm, ⟨6, _⟩ => ⟨S_, .i32⟩
  | .hbm, ⟨7, _⟩ => ⟨S4096x64, .i32⟩
  | .hbm, ⟨8, _⟩ => ⟨S4096x64, .i1⟩
  | .hbm, ⟨9, _⟩ => ⟨S4096x64, .i1⟩
  | .hbm, ⟨10, _⟩ => ⟨S4096x1, .i1⟩
  | .hbm, ⟨11, _⟩ => ⟨S4096, .i1⟩
  | .hbm, ⟨12, _⟩ => ⟨S4096x64, .i32⟩
  | .hbm, ⟨13, _⟩ => ⟨S_, .i32⟩
  | .hbm, ⟨14, _⟩ => ⟨S_, .i32⟩
  | .hbm, ⟨15, _⟩ => ⟨S4096x64, .i32⟩
  | .hbm, ⟨16, _⟩ => ⟨S_, .i32⟩
  | .hbm, ⟨17, _⟩ => ⟨S4096x64, .i32⟩
  | .hbm, ⟨18, _⟩ => ⟨S4096x64, .i1⟩
  | .hbm, ⟨19, _⟩ => ⟨S4096x64, .i1⟩
  | .hbm, ⟨20, _⟩ => ⟨S_, .i1⟩
  | .hbm, ⟨21, _⟩ => ⟨S4096, .i1⟩
  | .hbm, ⟨22, _⟩ => ⟨S4096x64, .f32⟩
  | .hbm, ⟨23, _⟩ => ⟨S4096x1, .f32⟩
  | .hbm, ⟨24, _⟩ => ⟨S4096x1, .f32⟩
  | .hbm, ⟨25, _⟩ => ⟨S4096, .f32⟩
  | .hbm, ⟨26, _⟩ => ⟨S4096, .f32⟩
  | .hbm, ⟨27, _⟩ => ⟨S4096, .i32⟩
  | .hbm, ⟨28, _⟩ => ⟨S_, .i32⟩
  | .hbm, ⟨29, _⟩ => ⟨S4096, .i32⟩
  | .hbm, ⟨30, _⟩ => ⟨S4096, .i32⟩
  | .hbm, ⟨31, _⟩ => ⟨S4096, .i32⟩
  | .hbm, ⟨32, _⟩ => ⟨S4096, .i32⟩
  | .hbm, ⟨33, _⟩ => ⟨S4096x1, .i32⟩
  | .hbm, ⟨34, _⟩ => ⟨S1x4, .i32⟩
  | .hbm, ⟨35, _⟩ => ⟨S4096x4, .i32⟩
  | .hbm, ⟨36, _⟩ => ⟨S4096x4, .i32⟩
  | .hbm, ⟨37, _⟩ => ⟨S4096x4, .i1⟩
  | .hbm, ⟨38, _⟩ => ⟨S4096x4, .f32⟩
  | .hbm, ⟨39, _⟩ => ⟨S_, .f32⟩
  | .hbm, ⟨40, _⟩ => ⟨S4, .f32⟩
  | .hbm, ⟨41, _⟩ => ⟨S2x2, .f32⟩
  | .hbm, ⟨42, _⟩ => ⟨S5x1, .f32⟩
  | .hbm, ⟨43, _⟩ => ⟨S1x4096, .i1⟩
  | .hbm, ⟨44, _⟩ => ⟨S1x4096, .i1⟩
  | .hbm, ⟨45, _⟩ => ⟨S1x4096, .f32⟩
  | .hbm, ⟨46, _⟩ => ⟨S1x4096, .f32⟩
  | .hbm, ⟨47, _⟩ => ⟨S1x4096, .i1⟩
  | .hbm, ⟨48, _⟩ => ⟨S1x4096, .i1⟩
  | .hbm, ⟨49, _⟩ => ⟨S5x4096, .f32⟩
  | .hbm, ⟨50, _⟩ => ⟨S5x4096, .f32⟩
  | .hbm, ⟨51, _⟩ => ⟨S5x4096, .i1⟩
  | .hbm, ⟨52, _⟩ => ⟨S1x4096, .i1⟩
  | .hbm, ⟨53, _⟩ => ⟨S1x4096, .i1⟩
  | .hbm, ⟨54, _⟩ => ⟨S5x4096, .f32⟩
  | .hbm, ⟨55, _⟩ => ⟨S5x4096, .f32⟩
  | .hbm, ⟨56, _⟩ => ⟨S5x4096, .i1⟩
  | .hbm, ⟨57, _⟩ => ⟨S1x4096, .i1⟩
  | .hbm, ⟨58, _⟩ => ⟨S5x4096, .f32⟩
  | .hbm, ⟨59, _⟩ => ⟨S5x4096, .f32⟩
  | .hbm, ⟨60, _⟩ => ⟨S5x4096, .f32⟩
  | .hbm, ⟨61, _⟩ => ⟨S5x4096, .f32⟩
  | .hbm, ⟨62, _⟩ => ⟨S5x4096, .i1⟩
  | .hbm, ⟨63, _⟩ => ⟨S_, .i1⟩
  | .hbm, ⟨64, _⟩ => ⟨S5x4096, .i1⟩
  | .hbm, ⟨65, _⟩ => ⟨S5x4096, .i1⟩
  | .hbm, ⟨66, _⟩ => ⟨S5x4096, .i1⟩
  | .hbm, ⟨67, _⟩ => ⟨S5x4096, .i1⟩
  | .hbm, ⟨68, _⟩ => ⟨S5x4096, .i1⟩
  | .hbm, ⟨69, _⟩ => ⟨S5x4096, .i1⟩
  | .hbm, ⟨70, _⟩ => ⟨S5x4096, .i1⟩
  | .hbm, ⟨71, _⟩ => ⟨S5x4096, .f32⟩
  | .hbm, ⟨72, _⟩ => ⟨S5x4, .f32⟩
  | .hbm, ⟨73, _⟩ => ⟨S5x2x2, .f32⟩
  | .hbm, ⟨74, _⟩ => ⟨S2x2, .i32⟩
  | .hbm, ⟨75, _⟩ => ⟨S5x2x2, .i32⟩
  | .local _ .vmem, ⟨0, _⟩ => ⟨S128x256, .f32⟩
  | .local _ .vmem, ⟨1, _⟩ => ⟨S128x256, .f32⟩
  | .local _ .vmem, ⟨2, _⟩ => ⟨S128x64x256, .f32⟩
  | .local _ .vmem, ⟨3, _⟩ => ⟨S128x64x256, .f32⟩
  | .local _ .vmem, ⟨4, _⟩ => ⟨S128x64, .f32⟩
  | .local _ .vmem, ⟨5, _⟩ => ⟨S128x64, .f32⟩
  | .local _ .vmem, ⟨6, _⟩ => ⟨S128x1, .f32⟩
  | .local _ .vmem, ⟨7, _⟩ => ⟨S128x1, .f32⟩
  | .local _ .vmem, ⟨8, _⟩ => ⟨S128x1, .f32⟩
  | .local _ .vmem, ⟨9, _⟩ => ⟨S128x1, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call0_call0_c : Ref sig .tc := ⟨.hbm, 13, rfl⟩
abbrev main_call0_call0_v0 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_v14_0 : Ref sig .tc := ⟨.hbm, 23, rfl⟩
abbrev main_v14_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_v22 : Ref sig .tc := ⟨.hbm, 38, rfl⟩
abbrev main_cst_3 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_c_4 : Ref sig .tc := ⟨.hbm, 63, rfl⟩
abbrev main_call2_v0 : Ref sig .tc := ⟨.hbm, 64, rfl⟩
abbrev main_call2_v1 : Ref sig .tc := ⟨.hbm, 65, rfl⟩
abbrev main_v46 : Ref sig .tc := ⟨.hbm, 66, rfl⟩
abbrev main_call3_v0 : Ref sig .tc := ⟨.hbm, 67, rfl⟩
abbrev main_v47 : Ref sig .tc := ⟨.hbm, 68, rfl⟩
abbrev main_call4_v0 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S4096x64x2_S4096x64x1_0_0_0 : S4096x64x2.Slices ![0, 0, 0] S4096x64x1
  shapeCasts_S4096x64x1_S4096x64 : S4096x64x1.ShapeCasts S4096x64
  bcast_S_S4096x64 : S_.BroadcastsInDim S4096x64 (![] : Fin 0 → Fin S4096x64.rank)
  slices_S4096x64_S4096x1_0_0 : S4096x64.Slices ![0, 0] S4096x1
  shapeCasts_S4096x1_S4096 : S4096x1.ShapeCasts S4096
  natLt_1_32 : 1 < 32
  bcast_S_S_ : S_.BroadcastsInDim S_ (![] : Fin 0 → Fin S_.rank)
  reduceWindows_S4096x64_S4096x64_w1s1p0_0_w64s1p63_0 : S4096x64.ReduceWindows (![1, 64] : Fin 2 → Nat) ![1, 1] ![0, 63] ![0, 0] S4096x64
  h_S_ : 0 < S_.numel
  reducesTo_S4096x64_S4096_d1 : S4096x64.ReducesTo [1] S4096
  inb_S128x256_S128x256_0_0 : ∀ a, (![0, 0] : Fin 2 → Nat) a + S128x256.size a ≤ S128x256.size a
  h_S128x256 : 0 < S128x256.numel
  inb_S128x64x256_S128x64x256_0_0_0 : ∀ a, (![0, 0, 0] : Fin 3 → Nat) a + S128x64x256.size a ≤ S128x64x256.size a
  h_S128x64x256 : 0 < S128x64x256.numel
  shapeCasts_S128x256_S128x1x256 : S128x256.ShapeCasts S128x1x256
  broadcasts_S128x1x256_S128x64x256 : S128x1x256.Broadcasts S128x64x256
  reduces_S128x64x256_S128x64 : S128x64x256.Reduces [2] S128x64
  slices_S128x64_o0_0_S128x1 : S128x64.Slices ![0, 0] S128x1
  inb_S128x1_S128x1_0_0 : ∀ a, (![0, 0] : Fin 2 → Nat) a + S128x1.size a ≤ S128x1.size a
  h_S128x1 : 0 < S128x1.numel
  inb_S128x64_S128x64_0_0 : ∀ a, (![0, 0] : Fin 2 → Nat) a + S128x64.size a ≤ S128x64.size a
  h_S128x64 : 0 < S128x64.numel
  shapeCasts_S128x64_S128x64 : S128x64.ShapeCasts S128x64
  reduces_S128x64_S128 : S128x64.Reduces [1] S128
  shapeCasts_S128_S128x1 : S128.ShapeCasts S128x1
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4_0_1 : S4096x1.BroadcastsInDim S4096x4 (![0, 1] : Fin 2 → Fin S4096x4.rank)
  bcast_S1x4_S4096x4_0_1 : S1x4.BroadcastsInDim S4096x4 (![0, 1] : Fin 2 → Fin S4096x4.rank)
  reducesTo_S4096x4_S4_d0 : S4096x4.ReducesTo [0] S4
  shapeCasts_S4_S2x2 : S4.ShapeCasts S2x2
  bcast_S5_S5x1_0 : S5.BroadcastsInDim S5x1 (![0] : Fin 1 → Fin S5x1.rank)
  bcast_S4096_S1x4096_1 : S4096.BroadcastsInDim S1x4096 (![1] : Fin 1 → Fin S1x4096.rank)
  bcast_S5x1_S5x4096_0_1 : S5x1.BroadcastsInDim S5x4096 (![0, 1] : Fin 2 → Fin S5x4096.rank)
  bcast_S1x4096_S5x4096_0_1 : S1x4096.BroadcastsInDim S5x4096 (![0, 1] : Fin 2 → Fin S5x4096.rank)
  bcast_S_S5x4096 : S_.BroadcastsInDim S5x4096 (![] : Fin 0 → Fin S5x4096.rank)
  shapeCasts_S5x4_S5x2x2 : S5x4.ShapeCasts S5x2x2
  dot_S5x4096_S4096x4_S5x4_1_0_0_1_n_n_wf : DotDims.WF S5x4096 S4096x4 S5x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x256.size a ≤ S4096x256.size a
  hwx0_0 : ∀ i : grid0.Coords, EltTy.bits .f32 = 32 ∨ (Rect.block (s := S4096x256) S128x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x64x256.size a ≤ S4096x64x256.size a
  hwx0_1 : ∀ i : grid0.Coords, EltTy.bits .f32 = 32 ∨ (Rect.block (s := S4096x64x256) S128x64x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S4096x64.size a
  hwx0_2 : ∀ i : grid0.Coords, EltTy.bits .f32 = 32 ∨ (Rect.block (s := S4096x64) S128x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x1.size a ≤ S4096x1.size a
  hwx0_3 : ∀ i : grid0.Coords, EltTy.bits .f32 = 32 ∨ (Rect.block (s := S4096x1) S128x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x1.size a ≤ S4096x1.size a
  hwx0_4 : ∀ i : grid0.Coords, EltTy.bits .f32 = 32 ∨ (Rect.block (s := S4096x1) S128x1.size (cc0_transform_4 i) (hinb0_4 i)).WholeWords (EltTy.packing .f32)

variable [Facts₀]

def dot_S5x4096_S4096x4_S5x4_1_0_0_1_n_n : DotDims S5x4096 S4096x4 S5x4 where
  lhsContracting := [1]
  rhsContracting := [0]
  lhsNonContracting := [0]
  rhsNonContracting := [1]
  lhsBatch := []
  rhsBatch := []
  wf := dot_S5x4096_S4096x4_S5x4_1_0_0_1_n_n_wf

abbrev win0_0 : Pipeline.Window sig grid0 :=
  Pipeline.Window.ofSpec (Memref.whole main_arg0) S128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x64x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S128x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14_0) S128x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v14_1) S128x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x256 : Shape := ⟨2, ![4096, 256]⟩
abbrev S4096x64x256 : Shape := ⟨3, ![4096, 64, 256]⟩
abbrev S4096x64x2 : Shape := ⟨3, ![4096, 64, 2]⟩
abbrev S5 : Shape := ⟨1, ![5]⟩
abbrev S4096x64x1 : Shape := ⟨3, ![4096, 64, 1]⟩
abbrev S4096x64 : Shape := ⟨2, ![4096, 64]⟩
abbrev S_ : Shape := ⟨0, ![]⟩
abbrev S4096x1 : Shape := ⟨2, ![4096, 1]⟩
abbrev S4096 : Shape := ⟨1, ![4096]⟩
abbrev S4096x1x256 : Shape := ⟨3, ![4096, 1, 256]⟩
abbrev S1x4 : Shape := ⟨2, ![1, 4]⟩
abbrev S4096x4 : Shape := ⟨2, ![4096, 4]⟩
abbrev S4 : Shape := ⟨1, ![4]⟩
abbrev S2x2 : Shape := ⟨2, ![2, 2]⟩
abbrev S5x1 : Shape := ⟨2, ![5, 1]⟩
abbrev S1x4096 : Shape := ⟨2, ![1, 4096]⟩
abbrev S5x4096 : Shape := ⟨2, ![5, 4096]⟩
abbrev S5x4 : Shape := ⟨2, ![5, 4]⟩
abbrev S5x2x2 : Shape := ⟨3, ![5, 2, 2]⟩

abbrev nBuf : Space → Nat
  | .hbm => 91
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x64x256, .f32⟩
  | .hbm, ⟨2, _⟩ => ⟨S4096x64x2, .i32⟩
  | .hbm, ⟨3, _⟩ => ⟨S5, .f32⟩
  | .hbm, ⟨4, _⟩ => ⟨S4096x64x1, .i32⟩
  | .hbm, ⟨5, _⟩ => ⟨S4096x64, .i32⟩
  | .hbm, ⟨6, _⟩ => ⟨S_, .i32⟩
  | .hbm, ⟨7, _⟩ => ⟨S4096x64, .i32⟩
  | .hbm, ⟨8, _⟩ => ⟨S4096x64, .i1⟩
  | .hbm, ⟨9, _⟩ => ⟨S4096x64, .i1⟩
  | .hbm, ⟨10, _⟩ => ⟨S4096x1, .i1⟩
  | .hbm, ⟨11, _⟩ => ⟨S4096, .i1⟩
  | .hbm, ⟨12, _⟩ => ⟨S4096x64, .i32⟩
  | .hbm, ⟨13, _⟩ => ⟨S_, .i32⟩
  | .hbm, ⟨14, _⟩ => ⟨S_, .i32⟩
  | .hbm, ⟨15, _⟩ => ⟨S4096x64, .i32⟩
  | .hbm, ⟨16, _⟩ => ⟨S_, .i32⟩
  | .hbm, ⟨17, _⟩ => ⟨S4096x64, .i32⟩
  | .hbm, ⟨18, _⟩ => ⟨S4096x64, .i1⟩
  | .hbm, ⟨19, _⟩ => ⟨S4096x64, .i1⟩
  | .hbm, ⟨20, _⟩ => ⟨S_, .i1⟩
  | .hbm, ⟨21, _⟩ => ⟨S4096, .i1⟩
  | .hbm, ⟨22, _⟩ => ⟨S4096x1x256, .f32⟩
  | .hbm, ⟨23, _⟩ => ⟨S4096x256, .f32⟩
  | .hbm, ⟨24, _⟩ => ⟨S4096x256, .f32⟩
  | .hbm, ⟨25, _⟩ => ⟨S4096x256, .f32⟩
  | .hbm, ⟨26, _⟩ => ⟨S_, .f32⟩
  | .hbm, ⟨27, _⟩ => ⟨S4096, .f32⟩
  | .hbm, ⟨28, _⟩ => ⟨S4096, .f32⟩
  | .hbm, ⟨29, _⟩ => ⟨S4096x1x256, .f32⟩
  | .hbm, ⟨30, _⟩ => ⟨S4096x64x256, .f32⟩
  | .hbm, ⟨31, _⟩ => ⟨S4096x64x256, .f32⟩
  | .hbm, ⟨32, _⟩ => ⟨S4096x64x256, .f32⟩
  | .hbm, ⟨33, _⟩ => ⟨S_, .f32⟩
  | .hbm, ⟨34, _⟩ => ⟨S4096x64, .f32⟩
  | .hbm, ⟨35, _⟩ => ⟨S4096x64, .f32⟩
  | .hbm, ⟨36, _⟩ => ⟨S_, .f32⟩
  | .hbm, ⟨37, _⟩ => ⟨S_, .f32⟩
  | .hbm, ⟨38, _⟩ => ⟨S4096x64, .f32⟩
  | .hbm, ⟨39, _⟩ => ⟨S4096x64, .f32⟩
  | .hbm, ⟨40, _⟩ => ⟨S_, .f32⟩
  | .hbm, ⟨41, _⟩ => ⟨S4096, .f32⟩
  | .hbm, ⟨42, _⟩ => ⟨S4096, .i32⟩
  | .hbm, ⟨43, _⟩ => ⟨S_, .i32⟩
  | .hbm, ⟨44, _⟩ => ⟨S4096, .i32⟩
  | .hbm, ⟨45, _⟩ => ⟨S4096, .i32⟩
  | .hbm, ⟨46, _⟩ => ⟨S4096, .i32⟩
  | .hbm, ⟨47, _⟩ => ⟨S4096, .i32⟩
  | .hbm, ⟨48, _⟩ => ⟨S4096x1, .i32⟩
  | .hbm, ⟨49, _⟩ => ⟨S1x4, .i32⟩
  | .hbm, ⟨50, _⟩ => ⟨S4096x4, .i32⟩
  | .hbm, ⟨51, _⟩ => ⟨S4096x4, .i32⟩
  | .hbm, ⟨52, _⟩ => ⟨S4096x4, .i1⟩
  | .hbm, ⟨53, _⟩ => ⟨S4096x4, .f32⟩
  | .hbm, ⟨54, _⟩ => ⟨S_, .f32⟩
  | .hbm, ⟨55, _⟩ => ⟨S4, .f32⟩
  | .hbm, ⟨56, _⟩ => ⟨S2x2, .f32⟩
  | .hbm, ⟨57, _⟩ => ⟨S5x1, .f32⟩
  | .hbm, ⟨58, _⟩ => ⟨S1x4096, .i1⟩
  | .hbm, ⟨59, _⟩ => ⟨S1x4096, .i1⟩
  | .hbm, ⟨60, _⟩ => ⟨S1x4096, .f32⟩
  | .hbm, ⟨61, _⟩ => ⟨S1x4096, .f32⟩
  | .hbm, ⟨62, _⟩ => ⟨S1x4096, .i1⟩
  | .hbm, ⟨63, _⟩ => ⟨S1x4096, .i1⟩
  | .hbm, ⟨64, _⟩ => ⟨S5x4096, .f32⟩
  | .hbm, ⟨65, _⟩ => ⟨S5x4096, .f32⟩
  | .hbm, ⟨66, _⟩ => ⟨S5x4096, .i1⟩
  | .hbm, ⟨67, _⟩ => ⟨S1x4096, .i1⟩
  | .hbm, ⟨68, _⟩ => ⟨S1x4096, .i1⟩
  | .hbm, ⟨69, _⟩ => ⟨S5x4096, .f32⟩
  | .hbm, ⟨70, _⟩ => ⟨S5x4096, .f32⟩
  | .hbm, ⟨71, _⟩ => ⟨S5x4096, .i1⟩
  | .hbm, ⟨72, _⟩ => ⟨S1x4096, .i1⟩
  | .hbm, ⟨73, _⟩ => ⟨S5x4096, .f32⟩
  | .hbm, ⟨74, _⟩ => ⟨S5x4096, .f32⟩
  | .hbm, ⟨75, _⟩ => ⟨S5x4096, .f32⟩
  | .hbm, ⟨76, _⟩ => ⟨S5x4096, .f32⟩
  | .hbm, ⟨77, _⟩ => ⟨S5x4096, .i1⟩
  | .hbm, ⟨78, _⟩ => ⟨S_, .i1⟩
  | .hbm, ⟨79, _⟩ => ⟨S5x4096, .i1⟩
  | .hbm, ⟨80, _⟩ => ⟨S5x4096, .i1⟩
  | .hbm, ⟨81, _⟩ => ⟨S5x4096, .i1⟩
  | .hbm, ⟨82, _⟩ => ⟨S5x4096, .i1⟩
  | .hbm, ⟨83, _⟩ => ⟨S5x4096, .i1⟩
  | .hbm, ⟨84, _⟩ => ⟨S5x4096, .i1⟩
  | .hbm, ⟨85, _⟩ => ⟨S5x4096, .i1⟩
  | .hbm, ⟨86, _⟩ => ⟨S5x4096, .f32⟩
  | .hbm, ⟨87, _⟩ => ⟨S5x4, .f32⟩
  | .hbm, ⟨88, _⟩ => ⟨S5x2x2, .f32⟩
  | .hbm, ⟨89, _⟩ => ⟨S2x2, .i32⟩
  | .hbm, ⟨90, _⟩ => ⟨S5x2x2, .i32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call0_call0_c : Ref sig .tc := ⟨.hbm, 13, rfl⟩
abbrev main_call0_call0_v0 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call1_v0 : Ref sig .tc := ⟨.hbm, 25, rfl⟩
abbrev main_call1_cst : Ref sig .tc := ⟨.hbm, 26, rfl⟩
abbrev main_call1_v1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_call2_v0 : Ref sig .tc := ⟨.hbm, 32, rfl⟩
abbrev main_call2_cst : Ref sig .tc := ⟨.hbm, 33, rfl⟩
abbrev main_call2_v1 : Ref sig .tc := ⟨.hbm, 34, rfl⟩
abbrev main_v20 : Ref sig .tc := ⟨.hbm, 35, rfl⟩
abbrev main_cst_2 : Ref sig .tc := ⟨.hbm, 36, rfl⟩
abbrev main_call3_v0 : Ref sig .tc := ⟨.hbm, 37, rfl⟩
abbrev main_call3_v1 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_c_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_call4_v0 : Ref sig .tc := ⟨.hbm, 48, rfl⟩
abbrev main_call4_v1 : Ref sig .tc := ⟨.hbm, 49, rfl⟩
abbrev main_call4_v2 : Ref sig .tc := ⟨.hbm, 50, rfl⟩
abbrev main_call4_v3 : Ref sig .tc := ⟨.hbm, 51, rfl⟩
abbrev main_call4_v4 : Ref sig .tc := ⟨.hbm, 52, rfl⟩
abbrev main_v28 : Ref sig .tc := ⟨.hbm, 53, rfl⟩
abbrev main_cst_5 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_c_6 : Ref sig .tc := ⟨.hbm, 78, rfl⟩
abbrev main_call5_v0 : Ref sig .tc := ⟨.hbm, 79, rfl⟩
abbrev main_call5_v1 : Ref sig .tc := ⟨.hbm, 80, rfl⟩
abbrev main_v52 : Ref sig .tc := ⟨.hbm, 81, rfl⟩
abbrev main_call6_v0 : Ref sig .tc := ⟨.hbm, 82, rfl⟩
abbrev main_v53 : Ref sig .tc := ⟨.hbm, 83, rfl⟩
abbrev main_call7_v0 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩

abbrev nD : Nat := 1
abbrev τ : Topo := Topo.v7x

variable {F : FTy → Type} [FloatOps F]

class Facts₀ : Prop where
  slices_S4096x64x2_S4096x64x1_0_0_0 : S4096x64x2.Slices ![0, 0, 0] S4096x64x1
  shapeCasts_S4096x64x1_S4096x64 : S4096x64x1.ShapeCasts S4096x64
  bcast_S_S4096x64 : S_.BroadcastsInDim S4096x64 (![] : Fin 0 → Fin S4096x64.rank)
  slices_S4096x64_S4096x1_0_0 : S4096x64.Slices ![0, 0] S4096x1
  shapeCasts_S4096x1_S4096 : S4096x1.ShapeCasts S4096
  natLt_1_32 : 1 < 32
  bcast_S_S_ : S_.BroadcastsInDim S_ (![] : Fin 0 → Fin S_.rank)
  reduceWindows_S4096x64_S4096x64_w1s1p0_0_w64s1p63_0 : S4096x64.ReduceWindows (![1, 64] : Fin 2 → Nat) ![1, 1] ![0, 63] ![0, 0] S4096x64
  h_S_ : 0 < S_.numel
  reducesTo_S4096x64_S4096_d1 : S4096x64.ReducesTo [1] S4096
  slices_S4096x64x256_S4096x1x256_0_0_0 : S4096x64x256.Slices ![0, 0, 0] S4096x1x256
  shapeCasts_S4096x1x256_S4096x256 : S4096x1x256.ShapeCasts S4096x256
  reducesTo_S4096x256_S4096_d1 : S4096x256.ReducesTo [1] S4096
  bcast_S4096x256_S4096x1x256_0_2 : S4096x256.BroadcastsInDim S4096x1x256 (![0, 2] : Fin 2 → Fin S4096x1x256.rank)
  bcast_S4096x1x256_S4096x64x256_0_1_2 : S4096x1x256.BroadcastsInDim S4096x64x256 (![0, 1, 2] : Fin 3 → Fin S4096x64x256.rank)
  reducesTo_S4096x64x256_S4096x64_d2 : S4096x64x256.ReducesTo [2] S4096x64
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4_0_1 : S4096x1.BroadcastsInDim S4096x4 (![0, 1] : Fin 2 → Fin S4096x4.rank)
  bcast_S1x4_S4096x4_0_1 : S1x4.BroadcastsInDim S4096x4 (![0, 1] : Fin 2 → Fin S4096x4.rank)
  reducesTo_S4096x4_S4_d0 : S4096x4.ReducesTo [0] S4
  shapeCasts_S4_S2x2 : S4.ShapeCasts S2x2
  bcast_S5_S5x1_0 : S5.BroadcastsInDim S5x1 (![0] : Fin 1 → Fin S5x1.rank)
  bcast_S4096_S1x4096_1 : S4096.BroadcastsInDim S1x4096 (![1] : Fin 1 → Fin S1x4096.rank)
  bcast_S5x1_S5x4096_0_1 : S5x1.BroadcastsInDim S5x4096 (![0, 1] : Fin 2 → Fin S5x4096.rank)
  bcast_S1x4096_S5x4096_0_1 : S1x4096.BroadcastsInDim S5x4096 (![0, 1] : Fin 2 → Fin S5x4096.rank)
  bcast_S_S5x4096 : S_.BroadcastsInDim S5x4096 (![] : Fin 0 → Fin S5x4096.rank)
  shapeCasts_S5x4_S5x2x2 : S5x4.ShapeCasts S5x2x2
  dot_S5x4096_S4096x4_S5x4_1_0_0_1_n_n_wf : DotDims.WF S5x4096 S4096x4 S5x4 [1] [0] [0] [1] [] []

variable [Facts₀]

def dot_S5x4096_S4096x4_S5x4_1_0_0_1_n_n : DotDims S5x4096 S4096x4 S5x4 where
  lhsContracting := [1]
  rhsContracting := [0]
  lhsNonContracting := [0]
  rhsNonContracting := [1]
  lhsBatch := []
  rhsBatch := []
  wf := dot_S5x4096_S4096x4_S5x4_1_0_0_1_n_n_wf

class Facts : Prop extends Facts₀ where

variable [Facts]
-- ==== Proof.RefOps.lean ====
/-
  The reference's @main as three consecutive straight lines of host operations, each outlined function's
  lines standing at its call site over that call's buffers:

  * `opsPre`  — from the threshold table to `%12`: the mask column, its running count along the entities,
                 the negatives' mask `%11` (a set entity after the first set one) and "has a negative" `%12`;
  * `opsMid`  — `%13` … `%22`: the distance to entity 0 (`%16`), the distances to all 64 entities (`%20`),
                 +inf where the negatives' mask is clear (`%21`) and the row minimum (`%22`);
  * `opsTail` — `%23` … `%59`: the category one-hot, its column counts, the per-threshold flags and their
                 matrix product with the one-hot, converted to integers.
-/
import proofs.«130048_j25366076850443_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-- The mask glue both programs share: 19 operations, `%cst` … `%12`. -/
abbrev opsPre : List (HloOp τ sig (Elt F)) :=
  [ StableHlo.nullary main_cst (fun i => FloatOps.ofBits .f32 (lit0 (S5.rowMajor i))),
    StableHlo.unary main_arg2 main_v0 ((extractStridedSlice S4096x64x1 ![0, 0, 0] · slices_S4096x64x2_S4096x64x1_0_0_0) : (⟨S4096x64x2, .i32⟩ : BufTy).Contents (Elt F) → (⟨S4096x64x1, .i32⟩ : BufTy).Contents (Elt F)),
    StableHlo.reshape main_v0 main_v1 rfl shapeCasts_S4096x64x1_S4096x64,
    StableHlo.nullary main_c (constantI S_ 32 0#32),
    StableHlo.unary main_c main_v2 (broadcastInDim S4096x64 ![] bcast_S_S4096x64 : (⟨S_, .i32⟩ : BufTy).Contents (Elt F) → (⟨S4096x64, .i32⟩ : BufTy).Contents (Elt F)),
    StableHlo.binary main_v1 main_v2 main_v3 (cmpi .ne : (⟨S4096x64, .i32⟩ : BufTy).Contents (Elt F) → (⟨S4096x64, .i32⟩ : BufTy).Contents (Elt F) → (⟨S4096x64, .i1⟩ : BufTy).Contents (Elt F)),
    StableHlo.unary main_v3 main_v4 (id : (⟨S4096x64, .i1⟩ : BufTy).Contents (Elt F) → (⟨S4096x64, .i1⟩ : BufTy).Contents (Elt F)),
    StableHlo.unary main_v4 main_v5 ((extractStridedSlice S4096x1 ![0, 0] · slices_S4096x64_S4096x1_0_0) : (⟨S4096x64, .i1⟩ : BufTy).Contents (Elt F) → (⟨S4096x1, .i1⟩ : BufTy).Contents (Elt F)),
    StableHlo.reshape main_v5 main_v6 rfl shapeCasts_S4096x1_S4096,
    StableHlo.unary main_v4 main_v7 ((extui 32 · natLt_1_32) : (⟨S4096x64, .i1⟩ : BufTy).Contents (Elt F) → (⟨S4096x64, .i32⟩ : BufTy).Contents (Elt F)),
    StableHlo.TRef.nullary main_call0.call0.c (constantI S_ 32 0#32),
    StableHlo.TRef.unary main_call0.call0.c main_call0.call0.v0 (broadcastInDim S_ ![] bcast_S_S_),
    StableHlo.TRef.binary (.of main_v7 : StableHlo.TRef sig ⟨S4096x64, .i32⟩) main_call0.call0.v0 main_call0.call0.v1 (fun x v => Host.reduceWindow IntOp.addi ![1, 64] ![1, 1] ![0, 63] ![0, 0] x v reduceWindows_S4096x64_S4096x64_w1s1p0_0_w64s1p63_0 h_S_),
    StableHlo.nullary main_c_0 (constantI S_ 32 1#32),
    StableHlo.unary main_c_0 main_v9 (broadcastInDim S4096x64 ![] bcast_S_S4096x64 : (⟨S_, .i32⟩ : BufTy).Contents (Elt F) → (⟨S4096x64, .i32⟩ : BufTy).Contents (Elt F)),
    StableHlo.binary main_v8 main_v9 main_v10 (cmpi .sgt : (⟨S4096x64, .i32⟩ : BufTy).Contents (Elt F) → (⟨S4096x64, .i32⟩ : BufTy).Contents (Elt F) → (⟨S4096x64, .i1⟩ : BufTy).Contents (Elt F)),
    StableHlo.binary main_v4 main_v10 main_v11 (andi : (⟨S4096x64, .i1⟩ : BufTy).Contents (Elt F) → (⟨S4096x64, .i1⟩ : BufTy).Contents (Elt F) → (⟨S4096x64, .i1⟩ : BufTy).Contents (Elt F)),
    StableHlo.nullary main_c_1 (constantI S_ 1 0#1),
    StableHlo.binary main_v11 main_c_1 main_v12 ((fun x v => Host.reduce IntOp.ori x v reducesTo_S4096x64_S4096_d1 h_S_) : (⟨S4096x64, .i1⟩ : BufTy).Contents (Elt F) → (⟨S_, .i1⟩ : BufTy).Contents (Elt F) → (⟨S4096, .i1⟩ : BufTy).Contents (Elt F)) ]

/-- The distances and the masked minimum: 20 operations, `%13` … `%22`. -/
abbrev opsMid : List (HloOp τ sig (Elt F)) :=
  [ StableHlo.unary main_arg1 main_v13 ((extractStridedSlice S4096x1x256 ![0, 0, 0] · slices_S4096x64x256_S4096x1x256_0_0_0) : (⟨S4096x64x256, .f32⟩ : BufTy).Contents (Elt F) → (⟨S4096x1x256, .f32⟩ : BufTy).Contents (Elt F)),
    StableHlo.reshape main_v13 main_v14 rfl shapeCasts_S4096x1x256_S4096x256,
    StableHlo.binary main_v14 main_arg0 main_v15 (subf : (⟨S4096x256, .f32⟩ : BufTy).Contents (Elt F) → (⟨S4096x256, .f32⟩ : BufTy).Contents (Elt F) → (⟨S4096x256, .f32⟩ : BufTy).Contents (Elt F)),
    StableHlo.TRef.binary (.of main_v15 : StableHlo.TRef sig ⟨S4096x256, .f32⟩) (.of main_v15 : StableHlo.TRef sig ⟨S4096x256, .f32⟩) main_call1.v0 mulf,
    StableHlo.TRef.nullary main_call1.cst (constant S_ .f32 0x00000000#32),
    StableHlo.TRef.binary main_call1.v0 main_call1.cst main_call1.v1 (fun x v => Host.reduceAdd x v reducesTo_S4096x256_S4096_d1 h_S_),
    StableHlo.TRef.unary main_call1.v1 main_call1.v2 Host.sqrt,
    StableHlo.unary main_arg0 main_v17 (broadcastInDim S4096x1x256 ![0, 2] bcast_S4096x256_S4096x1x256_0_2 : (⟨S4096x256, .f32⟩ : BufTy).Contents (Elt F) → (⟨S4096x1x256, .f32⟩ : BufTy).Contents (Elt F)),
    StableHlo.unary main_v17 main_v18 (broadcastInDim S4096x64x256 ![0, 1, 2] bcast_S4096x1x256_S4096x64x256_0_1_2 : (⟨S4096x1x256, .f32⟩ : BufTy).Contents (Elt F) → (⟨S4096x64x256, .f32⟩ : BufTy).Contents (Elt F)),
    StableHlo.binary main_arg1 main_v18 main_v19 (subf : (⟨S4096x64x256, .f32⟩ : BufTy).Contents (Elt F) → (⟨S4096x64x256, .f32⟩ : BufTy).Contents (Elt F) → (⟨S4096x64x256, .f32⟩ : BufTy).Contents (Elt F)),
    StableHlo.TRef.binary (.of main_v19 : StableHlo.TRef sig ⟨S4096x64x256, .f32⟩) (.of main_v19 : StableHlo.TRef sig ⟨S4096x64x256, .f32⟩) main_call2.v0 mulf,
    StableHlo.TRef.nullary main_call2.cst (constant S_ .f32 0x00000000#32),
    StableHlo.TRef.binary main_call2.v0 main_call2.cst main_call2.v1 (fun x v => Host.reduceAdd x v reducesTo_S4096x64x256_S4096x64_d2 h_S_),
    StableHlo.TRef.unary main_call2.v1 main_call2.v2 Host.sqrt,
    StableHlo.nullary main_cst_2 (constant S_ .f32 0x7F800000#32),
    StableHlo.TRef.unary (.of main_cst_2 : StableHlo.TRef sig ⟨S_, .f32⟩) main_call3.v0 id,
    StableHlo.TRef.unary main_call3.v0 main_call3.v1 (broadcastInDim S4096x64 ![] bcast_S_S4096x64),
    StableHlo.TRef.ternary (.of main_v11 : StableHlo.TRef sig ⟨S4096x64, .i1⟩) (.of main_v20 : StableHlo.TRef sig ⟨S4096x64, .f32⟩) main_call3.v1 main_call3.v2 select,
    StableHlo.nullary main_cst_3 (constant S_ .f32 0x7F800000#32),
    StableHlo.binary main_v21 main_cst_3 main_v22 ((fun x v => Host.reduce FloatOps.minimumf x v reducesTo_S4096x64_S4096_d1 h_S_) : (⟨S4096x64, .f32⟩ : BufTy).Contents (Elt F) → (⟨S_, .f32⟩ : BufTy).Contents (Elt F) → (⟨S4096, .f32⟩ : BufTy).Contents (Elt F)) ]

/-- The accounting both programs share: 49 operations, `%23` … `%59`. -/
abbrev opsTail : List (HloOp τ sig (Elt F)) :=
  [ StableHlo.unary main_v6 main_v23 ((extui 32 · natLt_1_32) : (⟨S4096, .i1⟩ : BufTy).Contents (Elt F) → (⟨S4096, .i32⟩ : BufTy).Contents (Elt F)),
    StableHlo.nullary main_c_4 (constantI S_ 32 2#32),
    StableHlo.unary main_c_4 main_v24 (broadcastInDim S4096 ![] bcast_S_S4096 : (⟨S_, .i32⟩ : BufTy).Contents (Elt F) → (⟨S4096, .i32⟩ : BufTy).Contents (Elt F)),
    StableHlo.binary main_v23 main_v24 main_v25 (muli : (⟨S4096, .i32⟩ : BufTy).Contents (Elt F) → (⟨S4096, .i32⟩ : BufTy).Contents (Elt F) → (⟨S4096, .i32⟩ : BufTy).Contents (Elt F)),
    StableHlo.unary main_v12 main_v26 ((extui 32 · natLt_1_32) : (⟨S4096, .i1⟩ : BufTy).Contents (Elt F) → (⟨S4096, .i32⟩ : BufTy).Contents (Elt F)),
    StableHlo.binary main_v25 main_v26 main_v27 (addi : (⟨S4096, .i32⟩ : BufTy).Contents (Elt F) → (⟨S4096, .i32⟩ : BufTy).Contents (Elt F) → (⟨S4096, .i32⟩ : BufTy).Contents (Elt F)),
    StableHlo.TRef.unary (.of main_v27 : StableHlo.TRef sig ⟨S4096, .i32⟩) main_call4.v0 (broadcastInDim S4096x1 ![0] bcast_S4096_S4096x1_0),
    StableHlo.TRef.nullary main_call4.v1 (iotaInDim S1x4 32 1),
    StableHlo.TRef.unary main_call4.v0 main_call4.v2 (broadcastInDim S4096x4 ![0, 1] bcast_S4096x1_S4096x4_0_1),
    StableHlo.TRef.unary main_call4.v1 main_call4.v3 (broadcastInDim S4096x4 ![0, 1] bcast_S1x4_S4096x4_0_1),
    StableHlo.TRef.binary main_call4.v2 main_call4.v3 main_call4.v4 (cmpi .eq),
    StableHlo.TRef.unary main_call4.v4 main_call4.v5 (uitofp .f32),
    StableHlo.nullary main_cst_5 (constant S_ .f32 0x00000000#32),
    StableHlo.binary main_v28 main_cst_5 main_v29 ((fun x v => Host.reduceAdd x v reducesTo_S4096x4_S4_d0 h_S_) : (⟨S4096x4, .f32⟩ : BufTy).Contents (Elt F) → (⟨S_, .f32⟩ : BufTy).Contents (Elt F) → (⟨S4, .f32⟩ : BufTy).Contents (Elt F)),
    StableHlo.reshape main_v29 main_v30 rfl shapeCasts_S4_S2x2,
    StableHlo.unary main_cst main_v31 (broadcastInDim S5x1 ![0] bcast_S5_S5x1_0 : (⟨S5, .f32⟩ : BufTy).Contents (Elt F) → (⟨S5x1, .f32⟩ : BufTy).Contents (Elt F)),
    StableHlo.unary main_v6 main_v32 (broadcastInDim S1x4096 ![1] bcast_S4096_S1x4096_1 : (⟨S4096, .i1⟩ : BufTy).Contents (Elt F) → (⟨S1x4096, .i1⟩ : BufTy).Contents (Elt F)),
    StableHlo.unary main_v12 main_v33 (broadcastInDim S1x4096 ![1] bcast_S4096_S1x4096_1 : (⟨S4096, .i1⟩ : BufTy).Contents (Elt F) → (⟨S1x4096, .i1⟩ : BufTy).Contents (Elt F)),
    StableHlo.unary main_v16 main_v34 (broadcastInDim S1x4096 ![1] bcast_S4096_S1x4096_1 : (⟨S4096, .f32⟩ : BufTy).Contents (Elt F) → (⟨S1x4096, .f32⟩ : BufTy).Contents (Elt F)),
    StableHlo.unary main_v22 main_v35 (broadcastInDim S1x4096 ![1] bcast_S4096_S1x4096_1 : (⟨S4096, .f32⟩ : BufTy).Contents (Elt F) → (⟨S1x4096, .f32⟩ : BufTy).Contents (Elt F)),
    StableHlo.unary main_v33 main_v36 (noti : (⟨S1x4096, .i1⟩ : BufTy).Contents (Elt F) → (⟨S1x4096, .i1⟩ : BufTy).Contents (Elt F)),
    StableHlo.binary main_v32 main_v36 main_v37 (andi : (⟨S1x4096, .i1⟩ : BufTy).Contents (Elt F) → (⟨S1x4096, .i1⟩ : BufTy).Contents (Elt F) → (⟨S1x4096, .i1⟩ : BufTy).Contents (Elt F)),
    StableHlo.unary main_v31 main_v38 (broadcastInDim S5x4096 ![0, 1] bcast_S5x1_S5x4096_0_1 : (⟨S5x1, .f32⟩ : BufTy).Contents (Elt F) → (⟨S5x4096, .f32⟩ : BufTy).Contents (Elt F)),
    StableHlo.unary main_v34 main_v39 (broadcastInDim S5x4096 ![0, 1] bcast_S1x4096_S5x4096_0_1 : (⟨S1x4096, .f32⟩ : BufTy).Contents (Elt F) → (⟨S5x4096, .f32⟩ : BufTy).Contents (Elt F)),
    StableHlo.binary main_v38 main_v39 main_v40 (cmpf .olt : (⟨S5x4096, .f32⟩ : BufTy).Contents (Elt F) → (⟨S5x4096, .f32⟩ : BufTy).Contents (Elt F) → (⟨S5x4096, .i1⟩ : BufTy).Contents (Elt F)),
    StableHlo.unary main_v32 main_v41 (noti : (⟨S1x4096, .i1⟩ : BufTy).Contents (Elt F) → (⟨S1x4096, .i1⟩ : BufTy).Contents (Elt F)),
    StableHlo.binary main_v41 main_v33 main_v42 (andi : (⟨S1x4096, .i1⟩ : BufTy).Contents (Elt F) → (⟨S1x4096, .i1⟩ : BufTy).Contents (Elt F) → (⟨S1x4096, .i1⟩ : BufTy).Contents (Elt F)),
    StableHlo.unary main_v35 main_v43 (broadcastInDim S5x4096 ![0, 1] bcast_S1x4096_S5x4096_0_1 : (⟨S1x4096, .f32⟩ : BufTy).Contents (Elt F) → (⟨S5x4096, .f32⟩ : BufTy).Contents (Elt F)),
    StableHlo.unary main_v31 main_v44 (broadcastInDim S5x4096 ![0, 1] bcast_S5x1_S5x4096_0_1 : (⟨S5x1, .f32⟩ : BufTy).Contents (Elt F) → (⟨S5x4096, .f32⟩ : BufTy).Contents (Elt F)),
    StableHlo.binary main_v43 main_v44 main_v45 (cmpf .olt : (⟨S5x4096, .f32⟩ : BufTy).Contents (Elt F) → (⟨S5x4096, .f32⟩ : BufTy).Contents (Elt F) → (⟨S5x4096, .i1⟩ : BufTy).Contents (Elt F)),
    StableHlo.binary main_v32 main_v33 main_v46 (andi : (⟨S1x4096, .i1⟩ : BufTy).Contents (Elt F) → (⟨S1x4096, .i1⟩ : BufTy).Contents (Elt F) → (⟨S1x4096, .i1⟩ : BufTy).Contents (Elt F)),
    StableHlo.unary main_v35 main_v47 (broadcastInDim S5x4096 ![0, 1] bcast_S1x4096_S5x4096_0_1 : (⟨S1x4096, .f32⟩ : BufTy).Contents (Elt F) → (⟨S5x4096, .f32⟩ : BufTy).Contents (Elt F)),
    StableHlo.unary main_v31 main_v48 (broadcastInDim S5x4096 ![0, 1] bcast_S5x1_S5x4096_0_1 : (⟨S5x1, .f32⟩ : BufTy).Contents (Elt F) → (⟨S5x4096, .f32⟩ : BufTy).Contents (Elt F)),
    StableHlo.binary main_v47 main_v48 main_v49 (minimumf : (⟨S5x4096, .f32⟩ : BufTy).Contents (Elt F) → (⟨S5x4096, .f32⟩ : BufTy).Contents (Elt F) → (⟨S5x4096, .f32⟩ : BufTy).Contents (Elt F)),
    StableHlo.unary main_v34 main_v50 (broadcastInDim S5x4096 ![0, 1] bcast_S1x4096_S5x4096_0_1 : (⟨S1x4096, .f32⟩ : BufTy).Contents (Elt F) → (⟨S5x4096, .f32⟩ : BufTy).Contents (Elt F)),
    StableHlo.binary main_v49 main_v50 main_v51 (cmpf .olt : (⟨S5x4096, .f32⟩ : BufTy).Contents (Elt F) → (⟨S5x4096, .f32⟩ : BufTy).Contents (Elt F) → (⟨S5x4096, .i1⟩ : BufTy).Contents (Elt F)),
    StableHlo.nullary main_c_6 (constantI S_ 1 0#1),
    StableHlo.TRef.unary (.of main_v46 : StableHlo.TRef sig ⟨S1x4096, .i1⟩) main_call5.v0 (broadcastInDim S5x4096 ![0, 1] bcast_S1x4096_S5x4096_0_1),
    StableHlo.TRef.unary (.of main_c_6 : StableHlo.TRef sig ⟨S_, .i1⟩) main_call5.v1 (broadcastInDim S5x4096 ![] bcast_S_S5x4096),
    StableHlo.TRef.ternary main_call5.v0 (.of main_v51 : StableHlo.TRef sig ⟨S5x4096, .i1⟩) main_call5.v1 main_call5.v2 select,
    StableHlo.TRef.unary (.of main_v42 : StableHlo.TRef sig ⟨S1x4096, .i1⟩) main_call6.v0 (broadcastInDim S5x4096 ![0, 1] bcast_S1x4096_S5x4096_0_1),
    StableHlo.TRef.ternary main_call6.v0 (.of main_v45 : StableHlo.TRef sig ⟨S5x4096, .i1⟩) (.of main_v52 : StableHlo.TRef sig ⟨S5x4096, .i1⟩) main_call6.v1 select,
    StableHlo.TRef.unary (.of main_v37 : StableHlo.TRef sig ⟨S1x4096, .i1⟩) main_call7.v0 (broadcastInDim S5x4096 ![0, 1] bcast_S1x4096_S5x4096_0_1),
    StableHlo.TRef.ternary main_call7.v0 (.of main_v40 : StableHlo.TRef sig ⟨S5x4096, .i1⟩) (.of main_v53 : StableHlo.TRef sig ⟨S5x4096, .i1⟩) main_call7.v1 select,
    StableHlo.unary main_v54 main_v55 (uitofp .f32 : (⟨S5x4096, .i1⟩ : BufTy).Contents (Elt F) → (⟨S5x4096, .f32⟩ : BufTy).Contents (Elt F)),
    StableHlo.binary main_v55 main_v28 main_v56 ((fun l r => Host.dotGeneral dot_S5x4096_S4096x4_S5x4_1_0_0_1_n_n none l r) : (⟨S5x4096, .f32⟩ : BufTy).Contents (Elt F) → (⟨S4096x4, .f32⟩ : BufTy).Contents (Elt F) → (⟨S5x4, .f32⟩ : BufTy).Contents (Elt F)),
    StableHlo.reshape main_v56 main_v57 rfl shapeCasts_S5x4_S5x2x2,
    StableHlo.unary main_v30 main_v58 (fptosi 32 : (⟨S2x2, .f32⟩ : BufTy).Contents (Elt F) → (⟨S2x2, .i32⟩ : BufTy).Contents (Elt F)),
    StableHlo.unary main_v57 main_v59 (fptosi 32 : (⟨S5x2x2, .f32⟩ : BufTy).Contents (Elt F) → (⟨S5x2x2, .i32⟩ : BufTy).Contents (Elt F)) ]

end Cert.ReferenceIdeal.Hand

end
-- ==== Proof.RefRun.lean ====
/-
  The reference program runs as the three straight lines of RefOps one after the other: @main IS their
  concatenation (each outlined function unfolded at its call), so every weakly fair execution terminates with
  every buffer at the lines' fold over the launch contents.
-/
import proofs.«130048_j25366076850443_1_alg».proof.Proof.RefOps

noncomputable section

namespace Cert.ReferenceIdeal.Hand

open Cert.ReferenceIdeal Cert.ReferenceIdeal.Gen Idealize.ShloMosaic Idealize.ShloMosaic.TcCoe Idealize.SL.Sem

variable {F : FTy → Type} [FloatOps F]

-- 88 sequencing steps and eight function bodies to unfold on the left, three list literals to concatenate on the right
set_option maxHeartbeats 1000000 in
/-- @main is the three lines in order. -/
theorem main_eq (c : Dev nD) : main (F := F) c = StableHlo.seq (opsPre ++ (opsMid ++ opsTail)) := by
  -- Both sides are one chain of host steps: each outlined function's body stands at its call, its closing
  -- return and the nesting of the sequencing are absorbed by the sequencing itself, and the three lists
  -- concatenate to the list of all 88 operations in program order; all of this holds by unfolding definitions.
  rfl

/-- Folding a concatenation is folding its second line over the fold of its first. -/
theorem after_app {τ : Topo} {sig : RefSig} {Val : EltTy → Type} :
    ∀ (l₁ l₂ : List (HloOp τ sig Val)) (V : Valuation τ sig Val),
      StableHlo.after (l₁ ++ l₂) V = StableHlo.after l₂ (StableHlo.after l₁ V)
  | [], _, _ => rfl
  | op :: l₁, l₂, V => by
    rw [List.cons_append, StableHlo.after_cons, StableHlo.after_cons, after_app l₁ l₂]

/-- The signature scopes no TensorCore buffer and no semaphore. -/
theorem scopedRefs_eq : (Finset.univ.filter fun b : Ref sig .tc => b.isScoped) = ∅ := by decide
theorem scopedSems_eq : (Finset.univ.filter fun sm : SemLoc sig => sm.isScoped .tc) = ∅ := by decide

/-- Every operation of each line touches TensorCore references only. -/
theorem opsPre_sub : (opsPre : List (HloOp τ sig (Elt F))).Forall fun op => op.bufs ⊆ StableHlo.tcRefs τ sig :=
  ⟨StableHlo.nullary_bufs_sub .., StableHlo.unary_bufs_sub .., StableHlo.reshape_bufs_sub .., StableHlo.nullary_bufs_sub .., StableHlo.unary_bufs_sub ..,
    StableHlo.binary_bufs_sub .., StableHlo.unary_bufs_sub .., StableHlo.unary_bufs_sub .., StableHlo.reshape_bufs_sub .., StableHlo.unary_bufs_sub ..,
    StableHlo.nullary_bufs_sub .., StableHlo.unary_bufs_sub .., StableHlo.binary_bufs_sub .., StableHlo.nullary_bufs_sub .., StableHlo.unary_bufs_sub ..,
    StableHlo.binary_bufs_sub .., StableHlo.binary_bufs_sub .., StableHlo.nullary_bufs_sub .., StableHlo.binary_bufs_sub ..⟩

theorem opsMid_sub : (opsMid : List (HloOp τ sig (Elt F))).Forall fun op => op.bufs ⊆ StableHlo.tcRefs τ sig :=
  ⟨StableHlo.unary_bufs_sub .., StableHlo.reshape_bufs_sub .., StableHlo.binary_bufs_sub .., StableHlo.binary_bufs_sub .., StableHlo.nullary_bufs_sub ..,
    StableHlo.binary_bufs_sub .., StableHlo.unary_bufs_sub .., StableHlo.unary_bufs_sub .., StableHlo.unary_bufs_sub .., StableHlo.binary_bufs_sub ..,
    StableHlo.binary_bufs_sub .., StableHlo.nullary_bufs_sub .., StableHlo.binary_bufs_sub .., StableHlo.unary_bufs_sub .., StableHlo.nullary_bufs_sub ..,
    StableHlo.unary_bufs_sub .., StableHlo.unary_bufs_sub .., StableHlo.ternary_bufs_sub .., StableHlo.nullary_bufs_sub .., StableHlo.binary_bufs_sub ..⟩

theorem opsTail_sub : (opsTail : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.unary_bufs_sub ..,
    StableHlo.binary_bufs_sub .., StableHlo.unary_bufs_sub .., StableHlo.nullary_bufs_sub .., StableHlo.unary_bufs_sub .., StableHlo.unary_bufs_sub ..,
    StableHlo.binary_bufs_sub .., StableHlo.unary_bufs_sub .., StableHlo.nullary_bufs_sub .., StableHlo.binary_bufs_sub .., StableHlo.reshape_bufs_sub ..,
    StableHlo.unary_bufs_sub .., StableHlo.unary_bufs_sub .., StableHlo.unary_bufs_sub .., StableHlo.unary_bufs_sub .., StableHlo.unary_bufs_sub ..,
    StableHlo.unary_bufs_sub .., StableHlo.binary_bufs_sub .., StableHlo.unary_bufs_sub .., StableHlo.unary_bufs_sub .., StableHlo.binary_bufs_sub ..,
    StableHlo.unary_bufs_sub .., StableHlo.binary_bufs_sub .., StableHlo.unary_bufs_sub .., StableHlo.unary_bufs_sub .., StableHlo.binary_bufs_sub ..,
    StableHlo.binary_bufs_sub .., StableHlo.unary_bufs_sub .., StableHlo.unary_bufs_sub .., StableHlo.binary_bufs_sub .., StableHlo.unary_bufs_sub ..,
    StableHlo.binary_bufs_sub .., StableHlo.nullary_bufs_sub .., StableHlo.unary_bufs_sub .., StableHlo.unary_bufs_sub .., StableHlo.ternary_bufs_sub ..,
    StableHlo.unary_bufs_sub .., StableHlo.ternary_bufs_sub .., StableHlo.unary_bufs_sub .., StableHlo.ternary_bufs_sub .., StableHlo.unary_bufs_sub ..,
    StableHlo.binary_bufs_sub .., StableHlo.reshape_bufs_sub .., StableHlo.unary_bufs_sub .., StableHlo.unary_bufs_sub ..⟩

theorem ops_sub :
    (opsPre ++ (opsMid ++ opsTail) : List (HloOp τ sig (Elt F))).Forall fun op => op.bufs ⊆ StableHlo.tcRefs τ sig :=
  List.forall_append.mpr ⟨opsPre_sub, List.forall_append.mpr ⟨opsMid_sub, opsTail_sub⟩⟩

/-- Every operation of each line determines its results: none draws a fresh value. -/
theorem opsPre_fresh : ∀ op ∈ (opsPre : List (HloOp τ sig (Elt F))), op.fresh = ∅ := by
  intro _ h; (repeat (cases h with | head => rfl | tail _ h => ?_)); exact nomatch h

theorem opsMid_fresh : ∀ op ∈ (opsMid : List (HloOp τ sig (Elt F))), op.fresh = ∅ := by
  intro _ h; (repeat (cases h with | head => rfl | tail _ h => ?_)); exact nomatch h

theorem opsTail_fresh : ∀ op ∈ (opsTail : List (HloOp τ sig (Elt F))), op.fresh = ∅ := by
  intro _ h; (repeat (cases h with | head => rfl | tail _ h => ?_)); exact nomatch h

theorem ops_fresh : ∀ op ∈ (opsPre ++ (opsMid ++ opsTail) : List (HloOp τ sig (Elt F))), op.fresh = ∅ := by
  intro op h
  rcases List.mem_append.mp h with h | h
  · exact opsPre_fresh op h
  · rcases List.mem_append.mp h with h | h
    · exact opsMid_fresh op h
    · exact opsTail_fresh op h

/-- Every weakly fair execution of the reference terminates, each buffer at the fold of the tail line over the
    middle line over the prefix line from its launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b)
        = StableHlo.after opsTail (StableHlo.after opsMid (StableHlo.after opsPre (StableHlo.launchContents m c))) (Proc.devRef .tc b) := by
  -- The run of a straight line gives the fold of the whole concatenation; folding a concatenation is folding
  -- line after line.
  exact (θ_run defs _ _).mono (fun _ h c b => by rw [h c b, after_app, after_app])
    (StableHlo.run_seq scopedRefs_eq scopedSems_eq defs main (fun _ => opsPre ++ (opsMid ++ opsTail)) main_eq
      (fun _ => ops_sub) m ρ (fun _ => ops_fresh))

end Cert.ReferenceIdeal.Hand

end
-- ==== Proof.Leaves.lean ====
/-
  The mask glue before the distances is the same line of operations in both programs, from the mask argument
  alone: so from valuations that agree on that argument both leave the same threshold table, "is known" (`%6`),
  negatives' mask (`%11`) and "has a negative" (`%12`). The kernel program then turns the negatives' mask into
  floats (`%13`) for the region; the lines touch no argument array.
-/
import proofs.«130048_j25366076850443_1_alg».proof.Proof.RefOps
import proofs.«130048_j25366076850443_1_alg».proof.Proof.Gen.KernelIdeal.Launch
import Idealize.ShloMosaic.Lib.StableHlo.Run
import Idealize.ShloMosaic.PureOps.Ideal

noncomputable section

namespace Cert.Bridge

open Idealize.ShloMosaic Idealize.ShloMosaic.TcCoe Idealize.ShloMosaic.StableHlo Idealize.SL.Sem

/-- The kernel program's host operations before the region, in order. -/
abbrev preK : List (HloOp Cert.KernelIdeal.τ Cert.KernelIdeal.sig (Elt Ideal)) :=
  List.flatten [Cert.KernelIdeal.Gen.hostOps0, Cert.KernelIdeal.Gen.hostOps0_1, Cert.KernelIdeal.Gen.hostOps0_2]

variable (Vk : Valuation Cert.KernelIdeal.τ Cert.KernelIdeal.sig (Elt Ideal)) (Vr : Valuation Cert.ReferenceIdeal.τ Cert.ReferenceIdeal.sig (Elt Ideal))

attribute [local irreducible] Host.reduce Host.reduceWindow in
set_option maxRecDepth 8192 in
set_option maxHeartbeats 2000000 in
/-- The threshold table is the same constant. -/
theorem pre_cst : after (Cert.ReferenceIdeal.Hand.opsPre (F := Ideal)) Vr (Proc.devRef .tc Cert.ReferenceIdeal.main_cst)
    = after preK Vk (Proc.devRef .tc Cert.KernelIdeal.main_cst) := by
  simp only [preK, Cert.KernelIdeal.Gen.hostOps0, Cert.KernelIdeal.Gen.hostOps0_1, Cert.KernelIdeal.Gen.hostOps0_2,
    List.flatten_cons, List.flatten_nil, List.append_nil, List.cons_append, List.nil_append]
  after_results_simp
  rfl

attribute [local irreducible] Host.reduce Host.reduceWindow in
set_option maxRecDepth 8192 in
set_option maxHeartbeats 2000000 in
/-- "Is known": the mask column at entity 0. -/
theorem pre_v6 (h2 : Vr (Proc.devRef .tc Cert.ReferenceIdeal.main_arg2) = Vk (Proc.devRef .tc Cert.KernelIdeal.main_arg2)) :
    after (Cert.ReferenceIdeal.Hand.opsPre (F := Ideal)) Vr (Proc.devRef .tc Cert.ReferenceIdeal.main_v6)
      = after preK Vk (Proc.devRef .tc Cert.KernelIdeal.main_v6) := by
  simp only [preK, Cert.KernelIdeal.Gen.hostOps0, Cert.KernelIdeal.Gen.hostOps0_1, Cert.KernelIdeal.Gen.hostOps0_2,
    List.flatten_cons, List.flatten_nil, List.append_nil, List.cons_append, List.nil_append]
  after_results_simp
  rw [h2]
  rfl

attribute [local irreducible] Host.reduce Host.reduceWindow in
set_option maxRecDepth 8192 in
set_option maxHeartbeats 2000000 in
/-- The negatives' mask: a set entity whose running count of set entities exceeds one. -/
theorem pre_v11 (h2 : Vr (Proc.devRef .tc Cert.ReferenceIdeal.main_arg2) = Vk (Proc.devRef .tc Cert.KernelIdeal.main_arg2)) :
    after (Cert.ReferenceIdeal.Hand.opsPre (F := Ideal)) Vr (Proc.devRef .tc Cert.ReferenceIdeal.main_v11)
      = after preK Vk (Proc.devRef .tc Cert.KernelIdeal.main_v11) := by
  simp only [preK, Cert.KernelIdeal.Gen.hostOps0, Cert.KernelIdeal.Gen.hostOps0_1, Cert.KernelIdeal.Gen.hostOps0_2,
    List.flatten_cons, List.flatten_nil, List.append_nil, List.cons_append, List.nil_append]
  after_results_simp
  rw [h2]
  rfl

attribute [local irreducible] Host.reduce Host.reduceWindow in
set_option maxRecDepth 8192 in
set_option maxHeartbeats 2000000 in
/-- "Has a negative": some entity of the row is in the negatives' mask. -/
theorem pre_v12 (h2 : Vr (Proc.devRef .tc Cert.ReferenceIdeal.main_arg2) = Vk (Proc.devRef .tc Cert.KernelIdeal.main_arg2)) :
    after (Cert.ReferenceIdeal.Hand.opsPre (F := Ideal)) Vr (Proc.devRef .tc Cert.ReferenceIdeal.main_v12)
      = after preK Vk (Proc.devRef .tc Cert.KernelIdeal.main_v12) := by
  simp only [preK, Cert.KernelIdeal.Gen.hostOps0, Cert.KernelIdeal.Gen.hostOps0_1, Cert.KernelIdeal.Gen.hostOps0_2,
    List.flatten_cons, List.flatten_nil, List.append_nil, List.cons_append, List.nil_append]
  after_results_simp
  rw [h2]
  rfl

attribute [local irreducible] Host.reduce Host.reduceWindow in
set_option maxRecDepth 8192 in
set_option maxHeartbeats 2000000 in
/-- The float mask the region reads is the negatives' mask, each bit as 0.0 or 1.0. -/
theorem pre_v13 : after preK Vk (Proc.devRef .tc Cert.KernelIdeal.main_v13)
    = uitofp (F := Ideal) .f32 (after preK Vk (Proc.devRef .tc Cert.KernelIdeal.main_v11) : Cert.KernelIdeal.S4096x64.Idx → BitVec 1) := by
  simp only [preK, Cert.KernelIdeal.Gen.hostOps0, Cert.KernelIdeal.Gen.hostOps0_1, Cert.KernelIdeal.Gen.hostOps0_2,
    List.flatten_cons, List.flatten_nil, List.append_nil, List.cons_append, List.nil_append]
  after_results_simp

set_option maxRecDepth 8192 in
set_option maxHeartbeats 2000000 in
/-- The reference's first two lines write no argument array, nor anything the first line left that the last reads. -/
theorem ref_keeps :
    after (Cert.ReferenceIdeal.Hand.opsPre (F := Ideal)) Vr (Proc.devRef .tc Cert.ReferenceIdeal.main_arg0) = Vr (Proc.devRef .tc Cert.ReferenceIdeal.main_arg0)
    ∧ after (Cert.ReferenceIdeal.Hand.opsPre (F := Ideal)) Vr (Proc.devRef .tc Cert.ReferenceIdeal.main_arg1) = Vr (Proc.devRef .tc Cert.ReferenceIdeal.main_arg1)
    ∧ after (Cert.ReferenceIdeal.Hand.opsMid (F := Ideal)) Vr (Proc.devRef .tc Cert.ReferenceIdeal.main_cst) = Vr (Proc.devRef .tc Cert.ReferenceIdeal.main_cst)
    ∧ after (Cert.ReferenceIdeal.Hand.opsMid (F := Ideal)) Vr (Proc.devRef .tc Cert.ReferenceIdeal.main_v6) = Vr (Proc.devRef .tc Cert.ReferenceIdeal.main_v6)
    ∧ after (Cert.ReferenceIdeal.Hand.opsMid (F := Ideal)) Vr (Proc.devRef .tc Cert.ReferenceIdeal.main_v12) = Vr (Proc.devRef .tc Cert.ReferenceIdeal.main_v12) := by
  refine ⟨?_, ?_, ?_, ?_, ?_⟩ <;> after_results_simp

set_option maxRecDepth 8192 in
set_option maxHeartbeats 4000000 in
/-- The reference's three lines write no argument array. -/
theorem ref_args :
    after (Cert.ReferenceIdeal.Hand.opsTail (F := Ideal)) (after (Cert.ReferenceIdeal.Hand.opsMid (F := Ideal)) (after (Cert.ReferenceIdeal.Hand.opsPre (F := Ideal)) Vr)) (Proc.devRef .tc Cert.ReferenceIdeal.main_arg0) = Vr (Proc.devRef .tc Cert.ReferenceIdeal.main_arg0)
    ∧ after (Cert.ReferenceIdeal.Hand.opsTail (F := Ideal)) (after (Cert.ReferenceIdeal.Hand.opsMid (F := Ideal)) (after (Cert.ReferenceIdeal.Hand.opsPre (F := Ideal)) Vr)) (Proc.devRef .tc Cert.ReferenceIdeal.main_arg1) = Vr (Proc.devRef .tc Cert.ReferenceIdeal.main_arg1)
    ∧ after (Cert.ReferenceIdeal.Hand.opsTail (F := Ideal)) (after (Cert.ReferenceIdeal.Hand.opsMid (F := Ideal)) (after (Cert.ReferenceIdeal.Hand.opsPre (F := Ideal)) Vr)) (Proc.devRef .tc Cert.ReferenceIdeal.main_arg2) = Vr (Proc.devRef .tc Cert.ReferenceIdeal.main_arg2) := by
  refine ⟨?_, ?_, ?_⟩ <;> after_results_simp

end Cert.Bridge

end
-- ==== Proof.Spec.lean ====
/-
  The mathematics shared by the kernel and the reference, index by index, at the ideal values.

  For a predicted row `b` and an entity `e` the Euclidean distance is the square root of the sum over the
  256 features of the squared differences; the smallest distance to a masked entity of row `b` is the fold of
  `min` from +inf over the 64 entities, an unmasked entity counting as +inf. Both programs compute exactly
  these two quantities (the kernel block by block, the reference on whole arrays); everything else in them is
  the same integer and comparison glue.
-/
import Idealize.ShloMosaic.PureOps.Ideal
import Idealize.ShloMosaic.Lib.ValueIdx

noncomputable section

namespace Cert.DistSpec

open Idealize.ShloMosaic Idealize.ShloMosaic.ValueIdx

/-- The squared difference of feature `k` between entity `e` of row `b` and the predicted row `b`. -/
def sq (x : (⟨2, ![4096, 256]⟩ : Shape).Idx → EReal) (ev : (⟨3, ![4096, 64, 256]⟩ : Shape).Idx → EReal)
    (b : Fin 4096) (e : Fin 64) (k : Fin 256) : EReal :=
  (ev (ix3 b e k) - x (ix2 b k)) * (ev (ix3 b e k) - x (ix2 b k))

/-- The distance from the predicted row `b` to its entity `e`. -/
def dist (x : (⟨2, ![4096, 256]⟩ : Shape).Idx → EReal) (ev : (⟨3, ![4096, 64, 256]⟩ : Shape).Idx → EReal)
    (b : Fin 4096) (e : Fin 64) : EReal :=
  Ideal.sqrt (∑ k : Fin 256, sq x ev b e k)

/-- +inf as the f32 word both programs spell it with. -/
def inf32 : EReal := Ideal.ofBits .f32 0x7F800000#32

/-- The smallest distance from row `b` to an entity its mask `N` selects, +inf when it selects none. -/
def minNeg (x : (⟨2, ![4096, 256]⟩ : Shape).Idx → EReal) (ev : (⟨3, ![4096, 64, 256]⟩ : Shape).Idx → EReal)
    (N : (⟨2, ![4096, 64]⟩ : Shape).Idx → BitVec 1) (b : Fin 4096) : EReal :=
  (Finset.univ : Finset (Fin 64)).fold min inf32 (fun e => Scalar.select (N (ix2 b e)) (dist x ev b e) inf32)

end Cert.DistSpec

end
-- ==== Proof.RefMid.lean ====
/-
  What the reference's middle line leaves, read at a row: buffer %16 holds the distance from the predicted row
  to its entity 0, buffer %22 the smallest distance to an entity the negatives' mask %11 selects.
-/
import proofs.«130048_j25366076850443_1_alg».proof.Proof.RefOps
import proofs.«130048_j25366076850443_1_alg».proof.Proof.Spec
import Idealize.ShloMosaic.PureOps.Ideal.Laws
import Idealize.ShloMosaic.Lib.Pipeline.Value

noncomputable section

namespace Cert.ReferenceIdeal.Hand

open Cert.ReferenceIdeal Cert.ReferenceIdeal.Gen Idealize.ShloMosaic Idealize.ShloMosaic.TcCoe Idealize.SL.Sem
open Idealize.ShloMosaic.ValueIdx
open Idealize.ShloMosaic.StableHlo

/-- Entity 0's features minus the predicted row's, as whole arrays. -/
def diff0 (x : S4096x256.Idx → EReal) (ev : S4096x64x256.Idx → EReal) : S4096x256.Idx → EReal :=
  subf (F := Ideal) (φ := .f32)
    (shapeCast S4096x256 (extractStridedSlice S4096x1x256 ![0, 0, 0] ev slices_S4096x64x256_S4096x1x256_0_0_0)
      shapeCasts_S4096x1x256_S4096x256) x

attribute [local irreducible] Host.reduceAdd Host.reduce in
/-- Buffer `%16` after the middle line: the square root of the row sums of the squared differences. -/
theorem v16_eq (W : Valuation τ sig (Elt Ideal)) :
    StableHlo.after (opsMid (F := Ideal)) W (Proc.devRef .tc main_v16)
      = Host.sqrt (F := Ideal) (φ := .f32)
          (Host.reduceAdd (F := Ideal) (φ := .f32)
            (mulf (F := Ideal) (φ := .f32) (diff0 (W (Proc.devRef .tc main_arg0)) (W (Proc.devRef .tc main_arg1)))
              (diff0 (W (Proc.devRef .tc main_arg0)) (W (Proc.devRef .tc main_arg1))))
            (constant (F := Ideal) S_ .f32 0x00000000#32) reducesTo_S4096x256_S4096_d1 h_S_) := by
  after_results
  rfl

theorem reduces_row : S4096x256.Reduces [1] S4096 := by decide

/-- Row `b` with feature `k` inserted on the dropped axis is the index `(b, k)`. -/
theorem lift_row (h : S4096x256.Reduces [1] S4096) (b : Fin 4096) (k : Fin 256) :
    h.lift (ix1 b) k = ix2 b k := by
  funext a
  match a with
  | ⟨0, _⟩ => exact Fin.ext rfl
  | ⟨1, _⟩ => exact Fin.ext rfl

/-- The difference array at `(b, k)`: entity 0's feature `k` of row `b` minus the predicted row's. -/
theorem diff0_apply (x : S4096x256.Idx → EReal) (ev : S4096x64x256.Idx → EReal) (b : Fin 4096) (k : Fin 256) :
    diff0 x ev (ix2 b k) = ev (ix3 b 0 k) - x (ix2 b k) := by
  unfold diff0
  rw [subf_apply]
  congr 1
  refine (shapeCast_apply _ _ (ix2 b k) (ix3 b (0 : Fin 1) k) ?_).trans ?_
  · rw [Shape.rowMajor_val_three, Shape.rowMajor_val_two]
    show (b.val * 1 + 0) * 256 + k.val = b.val * 256 + k.val
    omega
  · exact extractStridedSlice_apply _ _ _ _ (ix3 b (0 : Fin 64) k) (fun a => match a with
      | ⟨0, _⟩ => by show b.val = 0 + b.val; omega
      | ⟨1, _⟩ => by show 0 = 0 + 0; omega
      | ⟨2, _⟩ => by show k.val = 0 + k.val; omega)

/-- The squared difference the row sum adds at feature `k` is the specification's. -/
theorem sq0_apply (x : S4096x256.Idx → EReal) (ev : S4096x64x256.Idx → EReal) (b : Fin 4096) (k : Fin 256) :
    mulf (F := Ideal) (φ := .f32) (diff0 x ev) (diff0 x ev) (reduces_row.lift (ix1 b) k) = Cert.DistSpec.sq x ev b 0 k := by
  rw [lift_row, mulf_apply, diff0_apply]
  rfl

/-- `%16` at row `b`: the square root of the sum over the features of the squared differences between entity 0
    and the predicted row. -/
theorem pos_apply (W : Valuation τ sig (Elt Ideal)) (b : Fin 4096) :
    (StableHlo.after (opsMid (F := Ideal)) W (Proc.devRef .tc main_v16) : S4096.Idx → EReal) (ix1 b)
      = Cert.DistSpec.dist (W (Proc.devRef .tc main_arg0)) (W (Proc.devRef .tc main_arg1)) b 0 := by
  rw [v16_eq]
  show Ideal.sqrt (Ideal.hostReduceAdd reducesTo_S4096x256_S4096_d1 _ (Ideal.ofBits .f32 0x00000000#32) (ix1 b)) = _
  rw [Ideal.hostReduceAdd_single reducesTo_S4096x256_S4096_d1 reduces_row, Ideal.ofBits_zero_f32, zero_add]
  unfold Cert.DistSpec.dist
  congr 1
  exact Finset.sum_congr rfl fun k _ => sq0_apply _ _ b k

/-- Every entity's features minus the predicted row's, as whole arrays. -/
def diffAll (x : S4096x256.Idx → EReal) (ev : S4096x64x256.Idx → EReal) : S4096x64x256.Idx → EReal :=
  subf (F := Ideal) (φ := .f32) ev
    (broadcastInDim S4096x64x256 ![0, 1, 2] bcast_S4096x1x256_S4096x64x256_0_1_2
      (broadcastInDim S4096x1x256 ![0, 2] bcast_S4096x256_S4096x1x256_0_2 x))

/-- The distances from each row to each of its entities, as the reference computes them. -/
def distAll (x : S4096x256.Idx → EReal) (ev : S4096x64x256.Idx → EReal) : S4096x64.Idx → EReal :=
  Host.sqrt (F := Ideal) (φ := .f32)
    (Host.reduceAdd (F := Ideal) (φ := .f32) (mulf (F := Ideal) (φ := .f32) (diffAll x ev) (diffAll x ev))
      (constant (F := Ideal) S_ .f32 0x00000000#32) reducesTo_S4096x64x256_S4096x64_d2 h_S_)

/-- The distances with +inf where the mask is clear. -/
def maskedAll (x : S4096x256.Idx → EReal) (ev : S4096x64x256.Idx → EReal) (N : S4096x64.Idx → BitVec 1) :
    S4096x64.Idx → EReal :=
  select N (distAll x ev)
    (broadcastInDim S4096x64 ![] bcast_S_S4096x64 (constant (F := Ideal) S_ .f32 0x7F800000#32))

attribute [local irreducible] Host.reduceAdd Host.reduce in
/-- Buffer `%22` after the middle line: the row minimum, from +inf, of the masked distances. -/
theorem v22_eq (W : Valuation τ sig (Elt Ideal)) :
    StableHlo.after (opsMid (F := Ideal)) W (Proc.devRef .tc main_v22)
      = Host.reduce (FloatOps.minimumf (F := Ideal) (φ := .f32))
          (maskedAll (W (Proc.devRef .tc main_arg0)) (W (Proc.devRef .tc main_arg1)) (W (Proc.devRef .tc main_v11)))
          (constant (F := Ideal) S_ .f32 0x7F800000#32) reducesTo_S4096x64_S4096_d1 h_S_ := by
  after_results
  rfl

theorem reduces_ent : S4096x64.Reduces [1] S4096 := by decide
theorem reduces_feat : S4096x64x256.Reduces [2] S4096x64 := by decide

/-- Row `b` with entity `e` inserted on the dropped axis is the index `(b, e)`. -/
theorem lift_ent (h : S4096x64.Reduces [1] S4096) (b : Fin 4096) (e : Fin 64) :
    h.lift (ix1 b) e = ix2 b e := by
  funext a
  match a with
  | ⟨0, _⟩ => exact Fin.ext rfl
  | ⟨1, _⟩ => exact Fin.ext rfl

/-- `(b, e)` with feature `k` inserted on the dropped axis is the index `(b, e, k)`. -/
theorem lift_feat (h : S4096x64x256.Reduces [2] S4096x64) (b : Fin 4096) (e : Fin 64) (k : Fin 256) :
    h.lift (ix2 b e) k = ix3 b e k := by
  funext a
  match a with
  | ⟨0, _⟩ => exact Fin.ext rfl
  | ⟨1, _⟩ => exact Fin.ext rfl
  | ⟨2, _⟩ => exact Fin.ext rfl

/-- The difference array at `(b, e, k)`: entity `e`'s feature `k` of row `b` minus the predicted row's. -/
theorem diffAll_apply (x : S4096x256.Idx → EReal) (ev : S4096x64x256.Idx → EReal) (b : Fin 4096) (e : Fin 64)
    (k : Fin 256) : diffAll x ev (ix3 b e k) = ev (ix3 b e k) - x (ix2 b k) := by
  unfold diffAll
  rw [subf_apply]
  congr 1
  refine (broadcastInDim_apply _ _ _ (ix3 b e k) (ix3 b (0 : Fin 1) k) (fun a => match a with
    | ⟨0, _⟩ => rfl
    | ⟨1, _⟩ => rfl
    | ⟨2, _⟩ => rfl)).trans ?_
  exact broadcastInDim_apply _ _ _ (ix3 b (0 : Fin 1) k) (ix2 b k) (fun a => match a with
    | ⟨0, _⟩ => rfl
    | ⟨1, _⟩ => rfl)

/-- The squared difference the feature sum adds at `k` is the specification's. -/
theorem sqAll_apply (x : S4096x256.Idx → EReal) (ev : S4096x64x256.Idx → EReal) (b : Fin 4096) (e : Fin 64)
    (k : Fin 256) :
    mulf (F := Ideal) (φ := .f32) (diffAll x ev) (diffAll x ev) (reduces_feat.lift (ix2 b e) k)
      = Cert.DistSpec.sq x ev b e k := by
  rw [lift_feat, mulf_apply, diffAll_apply]
  rfl

/-- The distance array at `(b, e)` is the specification's distance. -/
theorem distAll_apply (x : S4096x256.Idx → EReal) (ev : S4096x64x256.Idx → EReal) (b : Fin 4096) (e : Fin 64) :
    distAll x ev (ix2 b e) = Cert.DistSpec.dist x ev b e := by
  unfold distAll
  show Ideal.sqrt (Ideal.hostReduceAdd reducesTo_S4096x64x256_S4096x64_d2 _ (Ideal.ofBits .f32 0x00000000#32) (ix2 b e)) = _
  rw [Ideal.hostReduceAdd_single reducesTo_S4096x64x256_S4096x64_d2 reduces_feat, Ideal.ofBits_zero_f32, zero_add]
  unfold Cert.DistSpec.dist
  congr 1
  exact Finset.sum_congr rfl fun k _ => sqAll_apply _ _ b e k

/-- The masked distance array at `(b, e)`: the distance where the mask is set, +inf where it is clear. -/
theorem maskedAll_apply (x : S4096x256.Idx → EReal) (ev : S4096x64x256.Idx → EReal) (N : S4096x64.Idx → BitVec 1)
    (b : Fin 4096) (e : Fin 64) :
    maskedAll x ev N (ix2 b e) = Scalar.select (N (ix2 b e)) (Cert.DistSpec.dist x ev b e) Cert.DistSpec.inf32 := by
  have hb : broadcastInDim S4096x64 ![] bcast_S_S4096x64 (constant (F := Ideal) S_ .f32 0x7F800000#32) (ix2 b e)
      = Cert.DistSpec.inf32 :=
    (broadcastInDim_apply _ _ _ (ix2 b e) ix0 (fun a => a.elim0)).trans rfl
  unfold maskedAll
  rw [select_apply, distAll_apply, hb]

/-- The masked distance the row minimum meets at entity `e`. -/
theorem masked_lift_apply (x : S4096x256.Idx → EReal) (ev : S4096x64x256.Idx → EReal) (N : S4096x64.Idx → BitVec 1)
    (b : Fin 4096) (e : Fin 64) :
    maskedAll x ev N (reduces_ent.lift (ix1 b) e)
      = Scalar.select (N (ix2 b e)) (Cert.DistSpec.dist x ev b e) Cert.DistSpec.inf32 := by
  rw [lift_ent, maskedAll_apply]

/-- `%22` at row `b`: the fold of `min` from +inf over the entities, an entity the mask `%11` clears counting +inf. -/
theorem mn_apply (W : Valuation τ sig (Elt Ideal)) (b : Fin 4096) :
    (StableHlo.after (opsMid (F := Ideal)) W (Proc.devRef .tc main_v22) : S4096.Idx → EReal) (ix1 b)
      = Cert.DistSpec.minNeg (W (Proc.devRef .tc main_arg0)) (W (Proc.devRef .tc main_arg1)) (W (Proc.devRef .tc main_v11)) b := by
  rw [v22_eq]
  refine (Host.reduce_eq_fold_single (FloatOps.minimumf (F := Ideal) (φ := .f32)) _ _ reducesTo_S4096x64_S4096_d1
    reduces_ent h_S_ (ix1 b)).trans ?_
  unfold Cert.DistSpec.minNeg
  show (Finset.univ : Finset (Fin 64)).fold min Cert.DistSpec.inf32
      (fun e => maskedAll (W (Proc.devRef .tc main_arg0)) (W (Proc.devRef .tc main_arg1)) (W (Proc.devRef .tc main_v11))
        (reduces_ent.lift (ix1 b) e)) = _
  exact Finset.fold_congr fun e _ => masked_lift_apply _ _ _ b e

end Cert.ReferenceIdeal.Hand

end
-- ==== Proof.KerPay.lean ====
/-
  The kernel body's three payloads read at an index, at the ideal values, over any loaded blocks: the distance
  array `%7` at (p, e), its column 0 (the first store) at (p, 0), and the masked row minimum (the second store)
  at (p, 0).
-/
import proofs.«130048_j25366076850443_1_alg».proof.Proof.Gen.KernelIdeal.Skeleton
import proofs.«130048_j25366076850443_1_alg».proof.Proof.Spec
import Idealize.ShloMosaic.PureOps.Ideal.Laws
import Idealize.ShloMosaic.Lib.Pipeline.Value

noncomputable section

namespace Cert.KernelIdeal.Pay

open Cert.KernelIdeal Cert.KernelIdeal.Gen Idealize.ShloMosaic Idealize.ShloMosaic.ValueIdx

/-- The source index of the sum over the features at the result index (p, e) and feature k is (p, e, k). -/
theorem lift_sum (p : Fin 128) (e : Fin 64) (k : Fin 256) :
    (reduces_S128x64x256_S128x64).lift (ix2 p e) k = ix3 p e k := by
  funext a; apply Fin.ext
  match a with
  | ⟨0, _⟩ => rfl
  | ⟨1, _⟩ => rfl
  | ⟨2, _⟩ => rfl

/-- The predicted block, given a unit entity axis and repeated along it, read at (p, e, k) is the block at (p, k). -/
theorem bcast_pred (x0 : Vec Ideal S128x256 .f32) (p : Fin 128) (e : Fin 64) (k : Fin 256) :
    broadcastTo S128x64x256 (shapeCast S128x1x256 x0 shapeCasts_S128x256_S128x1x256) broadcasts_S128x1x256_S128x64x256 (ix3 p e k)
      = x0 (ix2 p k) := by
  refine (broadcastTo_apply _ _ (ix3 p e k) (ix3 p (0 : Fin 1) k) (fun a => ?_)).trans ?_
  · match a with
    | ⟨0, _⟩ => rfl
    | ⟨1, _⟩ => rfl
    | ⟨2, _⟩ => rfl
  · refine shapeCast_apply _ _ (ix3 p (0 : Fin 1) k) (ix2 p k) ?_
    rw [Shape.rowMajor_val_two, Shape.rowMajor_val_three]
    show p.val * 256 + k.val = (p.val * 1 + 0) * 256 + k.val
    omega

/-- The distance array at (p, e): the square root of the sum over the features of the squared differences. -/
theorem pay1_apply (x0 : Vec Ideal S128x256 .f32) (x1 : Vec Ideal S128x64x256 .f32) (p : Fin 128) (e : Fin 64) :
    k0_pay1 x0 x1 (ix2 p e)
      = Ideal.sqrt (∑ k : Fin 256, (x1 (ix3 p e k) - x0 (ix2 p k)) * (x1 (ix3 p e k) - x0 (ix2 p k))) := by
  unfold k0_pay1
  dsimp only
  show Ideal.sqrt (multiReduction (F := Ideal) .add [2] S128x64 _ 0x00000000#32 reduces_S128x64x256_S128x64 (.inl rfl) rfl (ix2 p e)) = _
  refine congrArg Ideal.sqrt ?_
  refine (Ideal.multiReduction_add_single _ _ reduces_S128x64x256_S128x64 (.inl rfl) rfl (ix2 p e)).trans ?_
  show ∑ k : Fin 256, _ = _
  refine Finset.sum_congr rfl fun k _ => ?_
  rw [lift_sum]
  show (x1 (ix3 p e k) - _) * (x1 (ix3 p e k) - _) = _
  rw [bcast_pred]

/-- The first store's payload at (p, 0): column 0 of the distance array, the distance to entity 0. -/
theorem pay2_apply (x0 : Vec Ideal S128x256 .f32) (x1 : Vec Ideal S128x64x256 .f32) (p : Fin 128) :
    k0_pay2 x0 x1 (ix2 p (0 : Fin 1)) = k0_pay1 x0 x1 (ix2 p (0 : Fin 64)) := by
  unfold k0_pay2
  refine extractStridedSlice_apply _ _ _ (ix2 p (0 : Fin 1)) (ix2 p (0 : Fin 64)) (fun a => ?_)
  match a with
  | ⟨0, _⟩ => show p.val = 0 + p.val; omega
  | ⟨1, _⟩ => rfl

/-- The source index of the minimum over the entities at row p and entity e is (p, e). -/
theorem lift_min (p : Fin 128) (e : Fin 64) : (reduces_S128x64_S128).lift (ix1 p) e = ix2 p e := by
  funext a; apply Fin.ext
  match a with
  | ⟨0, _⟩ => rfl
  | ⟨1, _⟩ => rfl

/-- The second store's payload at (p, 0): the fold of `min` from +inf over the entities of row p, an entity
    counting its distance where the mask block exceeds one half and +inf elsewhere. -/
theorem pay3_apply (x0 : Vec Ideal S128x256 .f32) (x1 : Vec Ideal S128x64x256 .f32) (x2 : Vec Ideal S128x64 .f32) (p : Fin 128) :
    k0_pay3 x0 x1 x2 (ix2 p (0 : Fin 1))
      = (Finset.univ : Finset (Fin 64)).fold min Cert.DistSpec.inf32
          (fun e => Scalar.select (FloatOps.cmpf (F := Ideal) (φ := .f32) .ogt (x2 (ix2 p e)) (Scalar.ofBits .f32 0x3F000000#32))
            (k0_pay1 x0 x1 (ix2 p e)) Cert.DistSpec.inf32) := by
  unfold k0_pay3
  dsimp only
  refine (shapeCast_apply _ _ (ix2 p (0 : Fin 1)) (ix1 p) ?_).trans ?_
  · rw [Shape.rowMajor_val_one, Shape.rowMajor_val_two]
    show p.val = p.val * 1 + 0
    omega
  refine (multiReduction_minimumf_eq_fold _ _ reduces_S128x64_S128 (.inl rfl) rfl (ix1 p)).trans ?_
  refine ((reduces_S128x64_S128).fold_filter_drop_single _ _ _ (ix1 p)).trans ?_
  show (Finset.univ : Finset (Fin 64)).fold min _ _ = _
  refine Finset.fold_congr fun e _ => ?_
  show select _ _ _ ((reduces_S128x64_S128).lift (ix1 p) e) = _
  rw [lift_min, select_apply, cmpf_apply, shapeCast_self]
  rfl

end Cert.KernelIdeal.Pay

end
-- ==== Proof.KerArrays.lean ====
/-
  The kernel's two result arrays after the region, each as one function of the arrays the region finds: row
  `r` of the first holds the distance from the predicted row `r` to its entity 0, row `r` of the second the
  smallest distance to an entity whose mask value exceeds one half. Grid point `t` computes rows
  `128 t … 128 t + 127` from the same rows of its inputs, and the 32 points' blocks cover the 4096 rows.
-/
import proofs.«130048_j25366076850443_1_alg».proof.Proof.Gen.KernelIdeal.Frame
import proofs.«130048_j25366076850443_1_alg».proof.Proof.Spec
import proofs.«130048_j25366076850443_1_alg».proof.Proof.KerPay
import Idealize.ShloMosaic.PureOps.Ideal.Laws
import Idealize.ShloMosaic.Lib.Pipeline.Value

noncomputable section

namespace Cert.KernelIdeal.Arrays

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- The mask the kernel body tests: the float mask array exceeds one half. -/
def maskOf (nm : S4096x64.Idx → EReal) : S4096x64.Idx → BitVec 1 :=
  fun j => FloatOps.cmpf (F := Ideal) (φ := .f32) .ogt (nm j) (Scalar.ofBits .f32 0x3F000000#32)

theorem hz2 : (![0, 0] : Fin 2 → Nat) = fun _ => 0 := funext fun a => by fin_cases a <;> rfl
theorem hz3 : (![0, 0, 0] : Fin 3 → Nat) = fun _ => 0 := funext fun a => by fin_cases a <;> rfl

/-- Every window's block index at point `t` is `t` along the rows and 0 along every other axis. -/
theorem idx_facts : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

theorem t_lt (t : Fin cfg0.N) : t.val < 32 :=
  lt_of_lt_of_eq (show t.val < grid0.N from t.isLt) N_0

/-- Row `p` of point `t`'s block is row `128 t + p` of the array. -/
def row (t : Fin cfg0.N) (p : Fin 128) : Fin 4096 := ⟨t.val * 128 + p.val, by have := t_lt t; have := p.isLt; omega⟩

/-- The blocks the body loads at point `t`, at their literal types. -/
abbrev xblk (c : Dev nD) (t : Fin cfg0.N) : Vec Ideal S128x256 .f32 := iblk m c 0 t
abbrev eblk (c : Dev nD) (t : Fin cfg0.N) : Vec Ideal S128x64x256 .f32 := iblk m c 1 t
abbrev nblk (c : Dev nD) (t : Fin cfg0.N) : Vec Ideal S128x64 .f32 := iblk m c 2 t

/-- The predicted block at (p, k) is the predicted array at (128 t + p, k). -/
theorem xblk_apply (c : Dev nD) (t : Fin cfg0.N) (p : Fin 128) (k : Fin 256) :
    xblk m c t (ix2 p k) = (V m c main_arg0 : S4096x256.Idx → EReal) (ix2 (row t p) k) := by
  obtain ⟨e0, e1, -⟩ := idx_facts t
  unfold xblk iblk
  rw [View.read_apply]
  show V m c main_arg0 _ = V m c main_arg0 _
  congr 1
  funext a
  apply Fin.ext
  match a with
  | ⟨0, _⟩ => show win0_0.index t (0 : Fin 2) * 128 + 1 * p.val = t.val * 128 + p.val; rw [e0]; omega
  | ⟨1, _⟩ => show win0_0.index t (1 : Fin 2) * 256 + 1 * k.val = k.val; rw [e1]; omega

/-- The entity block at (p, e, k) is the entity array at (128 t + p, e, k). -/
theorem eblk_apply (c : Dev nD) (t : Fin cfg0.N) (p : Fin 128) (e : Fin 64) (k : Fin 256) :
    eblk m c t (ix3 p e k) = (V m c main_arg1 : S4096x64x256.Idx → EReal) (ix3 (row t p) e k) := by
  obtain ⟨-, -, e0, e1, e2, -⟩ := idx_facts t
  unfold eblk iblk
  rw [View.read_apply]
  show V m c main_arg1 _ = V m c main_arg1 _
  congr 1
  funext a
  apply Fin.ext
  match a with
  | ⟨0, _⟩ => show win0_1.index t (0 : Fin 3) * 128 + 1 * p.val = t.val * 128 + p.val; rw [e0]; omega
  | ⟨1, _⟩ => show win0_1.index t (1 : Fin 3) * 64 + 1 * e.val = e.val; rw [e1]; omega
  | ⟨2, _⟩ => show win0_1.index t (2 : Fin 3) * 256 + 1 * k.val = k.val; rw [e2]; omega

/-- The mask block at (p, e) is the float mask array at (128 t + p, e). -/
theorem nblk_apply (c : Dev nD) (t : Fin cfg0.N) (p : Fin 128) (e : Fin 64) :
    nblk m c t (ix2 p e) = (V m c main_v13 : S4096x64.Idx → EReal) (ix2 (row t p) e) := by
  obtain ⟨-, -, -, -, -, e0, e1, -⟩ := idx_facts t
  unfold nblk iblk
  rw [View.read_apply]
  show V m c main_v13 _ = V m c main_v13 _
  congr 1
  funext a
  apply Fin.ext
  match a with
  | ⟨0, _⟩ => show win0_2.index t (0 : Fin 2) * 128 + 1 * p.val = t.val * 128 + p.val; rw [e0]; omega
  | ⟨1, _⟩ => show win0_2.index t (1 : Fin 2) * 64 + 1 * e.val = e.val; rw [e1]; omega

/-- The distance the body computes at row p, entity e of point t is the distance of row 128 t + p to entity e. -/
theorem pay1_row (c : Dev nD) (t : Fin cfg0.N) (p : Fin 128) (e : Fin 64) :
    k0_pay1 (xblk m c t) (eblk m c t) (ix2 p e) = Cert.DistSpec.dist (V m c main_arg0) (V m c main_arg1) (row t p) e := by
  refine (Cert.KernelIdeal.Pay.pay1_apply (xblk m c t) (eblk m c t) p e).trans ?_
  unfold Cert.DistSpec.dist Cert.DistSpec.sq
  refine congrArg Ideal.sqrt (Finset.sum_congr rfl fun k _ => ?_)
  rw [xblk_apply, eblk_apply]

/-- WHAT POINT `t` WRITES BACK of the first result: rows 128 t … 128 t + 127 of the distance to entity 0. -/
theorem flushed3_eq (c : Dev nD) (t : Fin cfg0.N) :
    (dats m 0 c).flushed 3 t = ((cfg0.win 3).blk t).view.read (Elt Ideal)
      (fun i : S4096x1.Idx => Cert.DistSpec.dist (V m c main_arg0) (V m c main_arg1) (i 0) 0) := by
  show (cfg0.win 3).cut (grid0.coords t) ((dats m 0 c).after 3 t) = _
  rw [after0_3]
  unfold out0_3
  rw [View.canon_unit_zero hz2]
  simp only [View.ld_unit_zero (S := S128x256) hz2, View.ld_unit_zero (S := S128x64x256) hz3]
  obtain ⟨-, -, -, -, -, -, -, e0, e1, -⟩ := idx_facts t
  funext j
  obtain ⟨p, q, rfl⟩ : ∃ (p : Fin 128) (q : Fin 1), j = ix2 p q := ⟨j 0, j 1, eq_ix2 j⟩
  obtain rfl : q = 0 := Subsingleton.elim _ _
  show k0_pay2 (xblk m c t) (eblk m c t) (ix2 p (0 : Fin 1))
    = Cert.DistSpec.dist (V m c main_arg0) (V m c main_arg1) ((((cfg0.win 3).blk t).view.emb (ix2 p (0 : Fin 1))) 0) 0
  have hr : ((((cfg0.win 3).blk t).view.emb (ix2 p (0 : Fin 1))) 0 : Fin 4096) = row t p := by
    apply Fin.ext
    show win0_3.index t (0 : Fin 2) * 128 + 1 * p.val = t.val * 128 + p.val
    rw [e0]; omega
  rw [hr, Cert.KernelIdeal.Pay.pay2_apply, pay1_row]

/-- WHAT POINT `t` WRITES BACK of the second result: rows 128 t … of the smallest masked distance. -/
theorem flushed4_eq (c : Dev nD) (t : Fin cfg0.N) :
    (dats m 0 c).flushed 4 t = ((cfg0.win 4).blk t).view.read (Elt Ideal)
      (fun i : S4096x1.Idx => Cert.DistSpec.minNeg (V m c main_arg0) (V m c main_arg1) (maskOf (V m c main_v13)) (i 0)) := by
  show (cfg0.win 4).cut (grid0.coords t) ((dats m 0 c).after 4 t) = _
  rw [after0_4]
  unfold out0_4
  rw [View.canon_unit_zero hz2]
  simp only [View.ld_unit_zero (S := S128x256) hz2, View.ld_unit_zero (S := S128x64x256) hz3, View.ld_unit_zero (S := S128x64) hz2]
  obtain ⟨-, -, -, -, -, -, -, -, -, e0, e1⟩ := idx_facts t
  funext j
  obtain ⟨p, q, rfl⟩ : ∃ (p : Fin 128) (q : Fin 1), j = ix2 p q := ⟨j 0, j 1, eq_ix2 j⟩
  obtain rfl : q = 0 := Subsingleton.elim _ _
  show k0_pay3 (xblk m c t) (eblk m c t) (nblk m c t) (ix2 p (0 : Fin 1))
    = Cert.DistSpec.minNeg (V m c main_arg0) (V m c main_arg1) (maskOf (V m c main_v13)) ((((cfg0.win 4).blk t).view.emb (ix2 p (0 : Fin 1))) 0)
  have hr : ((((cfg0.win 4).blk t).view.emb (ix2 p (0 : Fin 1))) 0 : Fin 4096) = row t p := by
    apply Fin.ext
    show win0_4.index t (0 : Fin 2) * 128 + 1 * p.val = t.val * 128 + p.val
    rw [e0]; omega
  rw [hr, Cert.KernelIdeal.Pay.pay3_apply]
  unfold Cert.DistSpec.minNeg
  refine Finset.fold_congr fun e _ => ?_
  rw [nblk_apply, pay1_row]
  rfl

/-- An index of a result array is in point `t`'s block iff each coordinate is in the block's range on its axis. -/
theorem mem_blk3 (t : Fin cfg0.N) (i : S4096x1.Idx) :
    i ∈ ((cfg0.win 3).blk t).view.set ↔ ∀ a : Fin 2, win0_3.index t a * S128x1.size a ≤ (i a).val ∧ (i a).val < win0_3.index t a * S128x1.size a + S128x1.size a := by
  show i ∈ ((View.whole main_v14_0).slice (win0_3.rect t)).set ↔ _
  rw [View.set_slice_whole, Rect.mem_set_unit]
  exact Iff.rfl

theorem mem_blk4 (t : Fin cfg0.N) (i : S4096x1.Idx) :
    i ∈ ((cfg0.win 4).blk t).view.set ↔ ∀ a : Fin 2, win0_4.index t a * S128x1.size a ≤ (i a).val ∧ (i a).val < win0_4.index t a * S128x1.size a + S128x1.size a := by
  show i ∈ ((View.whole main_v14_1).slice (win0_4.rect t)).set ↔ _
  rw [View.set_slice_whole, Rect.mem_set_unit]
  exact Iff.rfl

/-- The point whose block holds row r is r / 128. -/
def pointOf (i : S4096x1.Idx) : Fin cfg0.N :=
  ⟨(i 0).val / 128, lt_of_lt_of_eq (by have : (i 0).val < 4096 := (i 0).isLt; omega : (i 0).val / 128 < 32) N_0.symm⟩

/-- Every row of the first result is in some point's block. -/
theorem cover3 (i : S4096x1.Idx) : ∃ t : Fin cfg0.N, (cfg0.win 3).flush t = true ∧ i ∈ ((cfg0.win 3).blk t).view.set := by
  have hi0 : (i 0).val < 4096 := (i 0).isLt
  have hi1 : (i 1).val < 1 := (i 1).isLt
  obtain ⟨-, -, -, -, -, -, -, e0, e1, -⟩ := idx_facts (pointOf i)
  refine ⟨pointOf i, flush0_3 _, ?_⟩
  rw [mem_blk3]
  intro a
  match a with
  | ⟨0, _⟩ =>
    show win0_3.index (pointOf i) (0 : Fin 2) * 128 ≤ (i 0).val ∧ (i 0).val < win0_3.index (pointOf i) (0 : Fin 2) * 128 + 128
    rw [e0]
    show (i 0).val / 128 * 128 ≤ (i 0).val ∧ (i 0).val < (i 0).val / 128 * 128 + 128
    omega
  | ⟨1, _⟩ =>
    show win0_3.index (pointOf i) (1 : Fin 2) * 1 ≤ (i 1).val ∧ (i 1).val < win0_3.index (pointOf i) (1 : Fin 2) * 1 + 1
    rw [e1]; omega

/-- Every row of the second result is in some point's block. -/
theorem cover4 (i : S4096x1.Idx) : ∃ t : Fin cfg0.N, (cfg0.win 4).flush t = true ∧ i ∈ ((cfg0.win 4).blk t).view.set := by
  have hi0 : (i 0).val < 4096 := (i 0).isLt
  have hi1 : (i 1).val < 1 := (i 1).isLt
  obtain ⟨-, -, -, -, -, -, -, -, -, e0, e1⟩ := idx_facts (pointOf i)
  refine ⟨pointOf i, flush0_4 _, ?_⟩
  rw [mem_blk4]
  intro a
  match a with
  | ⟨0, _⟩ =>
    show win0_4.index (pointOf i) (0 : Fin 2) * 128 ≤ (i 0).val ∧ (i 0).val < win0_4.index (pointOf i) (0 : Fin 2) * 128 + 128
    rw [e0]
    show (i 0).val / 128 * 128 ≤ (i 0).val ∧ (i 0).val < (i 0).val / 128 * 128 + 128
    omega
  | ⟨1, _⟩ =>
    show win0_4.index (pointOf i) (1 : Fin 2) * 1 ≤ (i 1).val ∧ (i 1).val < win0_4.index (pointOf i) (1 : Fin 2) * 1 + 1
    rw [e1]; omega

/-- The first result array: the distance to entity 0, row by row. -/
theorem final3 (c : Dev nD) :
    ((dats m 0 c).arrAt 3 cfg0.N : S4096x1.Idx → EReal)
      = fun i => Cert.DistSpec.dist (V m c main_arg0) (V m c main_arg1) (i 0) 0 :=
  (dats m 0 c).arrAt_eq_of_cover 3 _ (fun t _ => flushed3_eq m c t) cover3

/-- The second result array: the smallest distance to a masked entity, row by row. -/
theorem final4 (c : Dev nD) :
    ((dats m 0 c).arrAt 4 cfg0.N : S4096x1.Idx → EReal)
      = fun i => Cert.DistSpec.minNeg (V m c main_arg0) (V m c main_arg1) (maskOf (V m c main_v13)) (i 0) :=
  (dats m 0 c).arrAt_eq_of_cover 4 _ (fun t _ => flushed4_eq m c t) cover4

end Cert.KernelIdeal.Arrays

end
-- ==== Proof.Mask.lean ====
/-
  The kernel receives the negatives' mask as floats, 0.0 or 1.0, and tests "greater than one half"; at the ideal
  values that test gives back the mask bit.
-/
import Idealize.ShloMosaic.PureOps.Ideal

noncomputable section

namespace Cert.DistSpec

open Idealize.ShloMosaic

/-- The word 0x3F000000 denotes one half. -/
theorem ofBits_half : Ideal.ofBits .f32 0x3F000000#32 = ((1 / 2 : ℝ) : EReal) := by
  simp [Ideal.ofBits, Ideal.ieee, -EReal.coe_mul]; norm_num

/-- A mask bit turned into a float and compared with one half is the bit. -/
theorem mask_roundtrip (w : BitVec 1) :
    FloatOps.cmpf (F := Ideal) (φ := .f32) .ogt (FloatOps.uitofp (F := Ideal) .f32 w) (Scalar.ofBits .f32 0x3F000000#32) = w := by
  have hw : w = 0#1 ∨ w = 1#1 := by revert w; decide
  show Ideal.cmp .ogt (((w.toNat : ℝ) : EReal)) (Ideal.ofBits .f32 0x3F000000#32) = w
  rw [ofBits_half]
  rcases hw with rfl | rfl
  · show BitVec.ofBool (decide (((1 / 2 : ℝ) : EReal) < (((0#1 : BitVec 1).toNat : ℝ) : EReal))) = 0#1
    have : ¬ (((1 / 2 : ℝ) : EReal) < (((0#1 : BitVec 1).toNat : ℝ) : EReal)) := by
      rw [EReal.coe_lt_coe_iff]; norm_num
    rw [decide_eq_false this]; rfl
  · show BitVec.ofBool (decide (((1 / 2 : ℝ) : EReal) < (((1#1 : BitVec 1).toNat : ℝ) : EReal))) = 1#1
    have : (((1 / 2 : ℝ) : EReal) < (((1#1 : BitVec 1).toNat : ℝ) : EReal)) := by
      rw [EReal.coe_lt_coe_iff]; norm_num
    rw [decide_eq_true this]; rfl

end Cert.DistSpec

end
-- ==== Proof.Tail.lean ====
/-
  The accounting after the distances is the same line of operations in both programs: from "is known" (`%6`),
  "has a negative" (`%12`), the threshold table, the distance to entity 0 and the smallest masked distance it
  computes the category counts and the per-threshold error counts. So two runs whose five values agree end with
  the same two results; no operation of the line is opened.
-/
import proofs.«130048_j25366076850443_1_alg».proof.Proof.RefOps
import proofs.«130048_j25366076850443_1_alg».proof.Proof.Gen.KernelIdeal.Launch
import Idealize.ShloMosaic.Lib.StableHlo.Run
import Idealize.ShloMosaic.PureOps.Ideal

noncomputable section

namespace Cert.Bridge

open Idealize.ShloMosaic Idealize.ShloMosaic.TcCoe Idealize.ShloMosaic.StableHlo Idealize.SL.Sem

/-- The kernel program's host operations after the region, in order. -/
abbrev tailK : List (HloOp Cert.KernelIdeal.τ Cert.KernelIdeal.sig (Elt Ideal)) :=
  List.flatten [Cert.KernelIdeal.Gen.hostOps1, Cert.KernelIdeal.Gen.hostOps1_1, Cert.KernelIdeal.Gen.hostOps1_2,
    Cert.KernelIdeal.Gen.hostOps1_3, Cert.KernelIdeal.Gen.hostOps1_4, Cert.KernelIdeal.Gen.hostOps1_5, Cert.KernelIdeal.Gen.hostOps1_6]

attribute [local irreducible] Host.reduce Host.reduceAdd Host.reduceWindow in
set_option maxRecDepth 8192 in
set_option maxHeartbeats 4000000 in
/-- The category counts: the two programs' first results agree when "is known" and "has a negative" do. -/
theorem tail_counts (Wk : Valuation Cert.KernelIdeal.τ Cert.KernelIdeal.sig (Elt Ideal))
    (Wr : Valuation Cert.ReferenceIdeal.τ Cert.ReferenceIdeal.sig (Elt Ideal))
    (hK : Wr (Proc.devRef .tc Cert.ReferenceIdeal.main_v6) = Wk (Proc.devRef .tc Cert.KernelIdeal.main_v6))
    (hH : Wr (Proc.devRef .tc Cert.ReferenceIdeal.main_v12) = Wk (Proc.devRef .tc Cert.KernelIdeal.main_v12)) :
    after (Cert.ReferenceIdeal.Hand.opsTail (F := Ideal)) Wr (Proc.devRef .tc Cert.ReferenceIdeal.main_v58)
      = after tailK Wk (Proc.devRef .tc Cert.KernelIdeal.main_v52) := by
  simp only [tailK, Cert.KernelIdeal.Gen.hostOps1, Cert.KernelIdeal.Gen.hostOps1_1, Cert.KernelIdeal.Gen.hostOps1_2,
    Cert.KernelIdeal.Gen.hostOps1_3, Cert.KernelIdeal.Gen.hostOps1_4, Cert.KernelIdeal.Gen.hostOps1_5, Cert.KernelIdeal.Gen.hostOps1_6,
    List.flatten_cons, List.flatten_nil, List.append_nil, List.cons_append, List.nil_append]
  after_results_simp
  rw [hK, hH]
  rfl

attribute [local irreducible] Host.reduce Host.reduceAdd Host.reduceWindow in
set_option maxRecDepth 8192 in
set_option maxHeartbeats 8000000 in
/-- The per-threshold error counts: the two programs' second results agree when, besides, the threshold table, the
    distance to entity 0 and the smallest masked distance agree (the kernel's two as columns [4096,1] read as vectors). -/
theorem tail_flags (Wk : Valuation Cert.KernelIdeal.τ Cert.KernelIdeal.sig (Elt Ideal))
    (Wr : Valuation Cert.ReferenceIdeal.τ Cert.ReferenceIdeal.sig (Elt Ideal))
    (hK : Wr (Proc.devRef .tc Cert.ReferenceIdeal.main_v6) = Wk (Proc.devRef .tc Cert.KernelIdeal.main_v6))
    (hH : Wr (Proc.devRef .tc Cert.ReferenceIdeal.main_v12) = Wk (Proc.devRef .tc Cert.KernelIdeal.main_v12))
    (hC : Wr (Proc.devRef .tc Cert.ReferenceIdeal.main_cst) = Wk (Proc.devRef .tc Cert.KernelIdeal.main_cst))
    (hP : (Wr (Proc.devRef .tc Cert.ReferenceIdeal.main_v16) : Cert.KernelIdeal.S4096.Idx → EReal)
      = shapeCast Cert.KernelIdeal.S4096 (Wk (Proc.devRef .tc Cert.KernelIdeal.main_v14_0) : Cert.KernelIdeal.S4096x1.Idx → EReal) Cert.KernelIdeal.Gen.shapeCasts_S4096x1_S4096)
    (hM : (Wr (Proc.devRef .tc Cert.ReferenceIdeal.main_v22) : Cert.KernelIdeal.S4096.Idx → EReal)
      = shapeCast Cert.KernelIdeal.S4096 (Wk (Proc.devRef .tc Cert.KernelIdeal.main_v14_1) : Cert.KernelIdeal.S4096x1.Idx → EReal) Cert.KernelIdeal.Gen.shapeCasts_S4096x1_S4096) :
    after (Cert.ReferenceIdeal.Hand.opsTail (F := Ideal)) Wr (Proc.devRef .tc Cert.ReferenceIdeal.main_v59)
      = after tailK Wk (Proc.devRef .tc Cert.KernelIdeal.main_v53) := by
  simp only [tailK, Cert.KernelIdeal.Gen.hostOps1, Cert.KernelIdeal.Gen.hostOps1_1, Cert.KernelIdeal.Gen.hostOps1_2,
    Cert.KernelIdeal.Gen.hostOps1_3, Cert.KernelIdeal.Gen.hostOps1_4, Cert.KernelIdeal.Gen.hostOps1_5, Cert.KernelIdeal.Gen.hostOps1_6,
    List.flatten_cons, List.flatten_nil, List.append_nil, List.cons_append, List.nil_append]
  after_results_simp
  rw [hK, hH, hC, hP, hM]
  rfl

end Cert.Bridge

end
-- ==== Proof.Results.lean ====
/-
  From memories that agree on the three arguments, the reference's two results are the kernel program's.

  The kernel program's results are its last line of host operations folded over the region's exit contents (the two
  result arrays at what the grid wrote, everything else as the region found it); the reference's are its last line
  folded over what its first two lines left. The five values the last line reads agree: the threshold table,
  "is known" and "has a negative" by the shared mask glue; the distance to entity 0 and the smallest masked
  distance because each side's array holds, row by row, the specification's value — the kernel's mask test
  "float mask > 1/2" giving back the mask bit.
-/
import proofs.«130048_j25366076850443_1_alg».proof.Proof.Gen.KernelIdeal.Frame
import proofs.«130048_j25366076850443_1_alg».proof.Proof.RefMid
import proofs.«130048_j25366076850443_1_alg».proof.Proof.KerArrays
import proofs.«130048_j25366076850443_1_alg».proof.Proof.Mask
import proofs.«130048_j25366076850443_1_alg».proof.Proof.Leaves
import proofs.«130048_j25366076850443_1_alg».proof.Proof.Tail

noncomputable section

namespace Cert.Bridge

open Idealize.ShloMosaic Idealize.ShloMosaic.TcCoe Idealize.ShloMosaic.StableHlo Idealize.SL.Sem
open Idealize.ShloMosaic.ValueIdx

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- The region's exit contents on core `c`. -/
abbrev exitK (c : Dev Cert.KernelIdeal.nD) : Valuation Cert.KernelIdeal.τ Cert.KernelIdeal.sig (Elt Ideal) :=
  Pipeline.withArrays (Cert.KernelIdeal.cfgs 0).spec c (Cert.KernelIdeal.Gen.V0 m c) fun w => (Cert.KernelIdeal.Gen.dats m 0 c).arrAt w (Cert.KernelIdeal.cfgs 0).N

/-- What the reference's first two lines leave on core `c`. -/
abbrev midR (c : Dev Cert.ReferenceIdeal.nD) : Valuation Cert.ReferenceIdeal.τ Cert.ReferenceIdeal.sig (Elt Ideal) :=
  after (Cert.ReferenceIdeal.Hand.opsMid (F := Ideal)) (after (Cert.ReferenceIdeal.Hand.opsPre (F := Ideal)) (launchContents m' c))

/-- The float mask tested against one half is the negatives' mask. -/
theorem maskOf_uitofp (N : Cert.KernelIdeal.S4096x64.Idx → BitVec 1) :
    Cert.KernelIdeal.Arrays.maskOf (uitofp (F := Ideal) .f32 N) = N :=
  funext fun j => Cert.DistSpec.mask_roundtrip (N j)

section
variable (c : Dev Cert.KernelIdeal.nD)
variable (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
variable (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
variable (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
include h2

theorem leaf_cst : midR m' c (Proc.devRef .tc Cert.ReferenceIdeal.main_cst) = exitK m c (Proc.devRef .tc Cert.KernelIdeal.main_cst) := by
  have hk : exitK m c (Proc.devRef .tc Cert.KernelIdeal.main_cst) = Cert.KernelIdeal.Gen.V0 m c (Proc.devRef .tc Cert.KernelIdeal.main_cst) :=
    Pipeline.withArrays_of_ne _ c _ _ Cert.KernelIdeal.main_cst (by decide)
  rw [hk]
  exact ((ref_keeps _).2.2.1).trans (pre_cst _ _)

theorem leaf_v6 : midR m' c (Proc.devRef .tc Cert.ReferenceIdeal.main_v6) = exitK m c (Proc.devRef .tc Cert.KernelIdeal.main_v6) := by
  have hk : exitK m c (Proc.devRef .tc Cert.KernelIdeal.main_v6) = Cert.KernelIdeal.Gen.V0 m c (Proc.devRef .tc Cert.KernelIdeal.main_v6) :=
    Pipeline.withArrays_of_ne _ c _ _ Cert.KernelIdeal.main_v6 (by decide)
  rw [hk]
  exact ((ref_keeps _).2.2.2.1).trans (pre_v6 _ _ h2)

theorem leaf_v12 : midR m' c (Proc.devRef .tc Cert.ReferenceIdeal.main_v12) = exitK m c (Proc.devRef .tc Cert.KernelIdeal.main_v12) := by
  have hk : exitK m c (Proc.devRef .tc Cert.KernelIdeal.main_v12) = Cert.KernelIdeal.Gen.V0 m c (Proc.devRef .tc Cert.KernelIdeal.main_v12) :=
    Pipeline.withArrays_of_ne _ c _ _ Cert.KernelIdeal.main_v12 (by decide)
  rw [hk]
  exact ((ref_keeps _).2.2.2.2).trans (pre_v12 _ _ h2)

include h0 h1

/-- The distance to entity 0: the reference's vector is the kernel's column read as a vector. -/
theorem leaf_pos : (midR m' c (Proc.devRef .tc Cert.ReferenceIdeal.main_v16) : Cert.KernelIdeal.S4096.Idx → EReal)
    = shapeCast Cert.KernelIdeal.S4096 (exitK m c (Proc.devRef .tc Cert.KernelIdeal.main_v14_0) : Cert.KernelIdeal.S4096x1.Idx → EReal) Cert.KernelIdeal.Gen.shapeCasts_S4096x1_S4096 := by
  funext j
  obtain ⟨b, rfl⟩ : ∃ b : Fin 4096, j = ix1 b := ⟨j 0, eq_ix1 j⟩
  refine (Cert.ReferenceIdeal.Hand.pos_apply (after (Cert.ReferenceIdeal.Hand.opsPre (F := Ideal)) (launchContents m' c)) b).trans ?_
  refine Eq.trans ?_ (shapeCast_apply _ _ (ix1 b) (ix2 b (0 : Fin 1)) (by
    rw [Shape.rowMajor_val_two, Shape.rowMajor_val_one]; show b.val * 1 + 0 = b.val; omega)).symm
  have hk : exitK m c (Proc.devRef .tc Cert.KernelIdeal.main_v14_0) = (Cert.KernelIdeal.Gen.dats m 0 c).arrAt 3 Cert.KernelIdeal.cfg0.N :=
    Pipeline.withArrays_arr Cert.KernelIdeal.spec0 Cert.KernelIdeal.Gen.launch0.win.arr_inj c _ _ 3
  rw [hk, Cert.KernelIdeal.Arrays.final3, (ref_keeps _).1, (ref_keeps _).2.1,
    Cert.KernelIdeal.Gen.V_main_arg0, Cert.KernelIdeal.Gen.V_main_arg1]
  show Cert.DistSpec.dist (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) b 0 = _
  rw [h0, h1]
  rfl

/-- The smallest masked distance likewise. -/
theorem leaf_mn : (midR m' c (Proc.devRef .tc Cert.ReferenceIdeal.main_v22) : Cert.KernelIdeal.S4096.Idx → EReal)
    = shapeCast Cert.KernelIdeal.S4096 (exitK m c (Proc.devRef .tc Cert.KernelIdeal.main_v14_1) : Cert.KernelIdeal.S4096x1.Idx → EReal) Cert.KernelIdeal.Gen.shapeCasts_S4096x1_S4096 := by
  funext j
  obtain ⟨b, rfl⟩ : ∃ b : Fin 4096, j = ix1 b := ⟨j 0, eq_ix1 j⟩
  refine (Cert.ReferenceIdeal.Hand.mn_apply (after (Cert.ReferenceIdeal.Hand.opsPre (F := Ideal)) (launchContents m' c)) b).trans ?_
  refine Eq.trans ?_ (shapeCast_apply _ _ (ix1 b) (ix2 b (0 : Fin 1)) (by
    rw [Shape.rowMajor_val_two, Shape.rowMajor_val_one]; show b.val * 1 + 0 = b.val; omega)).symm
  have hk : exitK m c (Proc.devRef .tc Cert.KernelIdeal.main_v14_1) = (Cert.KernelIdeal.Gen.dats m 0 c).arrAt 4 Cert.KernelIdeal.cfg0.N :=
    Pipeline.withArrays_arr Cert.KernelIdeal.spec0 Cert.KernelIdeal.Gen.launch0.win.arr_inj c _ _ 4
  have hmask : Cert.KernelIdeal.Arrays.maskOf (Cert.KernelIdeal.Gen.V m c Cert.KernelIdeal.main_v13)
      = after (Cert.ReferenceIdeal.Hand.opsPre (F := Ideal)) (launchContents m' c) (Proc.devRef .tc Cert.ReferenceIdeal.main_v11) := by
    show Cert.KernelIdeal.Arrays.maskOf (after preK (fun b => m (c, b)) (Proc.devRef .tc Cert.KernelIdeal.main_v13)) = _
    rw [pre_v13, maskOf_uitofp]
    exact (pre_v11 _ _ h2).symm
  rw [hk, Cert.KernelIdeal.Arrays.final4, (ref_keeps _).1, (ref_keeps _).2.1,
    Cert.KernelIdeal.Gen.V_main_arg0, Cert.KernelIdeal.Gen.V_main_arg1, hmask]
  show Cert.DistSpec.minNeg (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) _ b = _
  rw [h0, h1]
  rfl

/-- The category counts. -/
theorem result0 : after (Cert.ReferenceIdeal.Hand.opsTail (F := Ideal)) (midR m' c) (Proc.devRef .tc Cert.ReferenceIdeal.main_v58)
    = Pipeline.afterTail₀ Cert.KernelIdeal.cfgs (Cert.KernelIdeal.Gen.dats m) 0 (Cert.KernelIdeal.Gen.V0 m)
        [Cert.KernelIdeal.Gen.hostOps1, Cert.KernelIdeal.Gen.hostOps1_1, Cert.KernelIdeal.Gen.hostOps1_2, Cert.KernelIdeal.Gen.hostOps1_3, Cert.KernelIdeal.Gen.hostOps1_4, Cert.KernelIdeal.Gen.hostOps1_5, Cert.KernelIdeal.Gen.hostOps1_6] c Cert.KernelIdeal.main_v52 :=
  tail_counts (exitK m c) (midR m' c) (leaf_v6 m m' c h2) (leaf_v12 m m' c h2)

/-- The per-threshold error counts. -/
theorem result1 : after (Cert.ReferenceIdeal.Hand.opsTail (F := Ideal)) (midR m' c) (Proc.devRef .tc Cert.ReferenceIdeal.main_v59)
    = Pipeline.afterTail₀ Cert.KernelIdeal.cfgs (Cert.KernelIdeal.Gen.dats m) 0 (Cert.KernelIdeal.Gen.V0 m)
        [Cert.KernelIdeal.Gen.hostOps1, Cert.KernelIdeal.Gen.hostOps1_1, Cert.KernelIdeal.Gen.hostOps1_2, Cert.KernelIdeal.Gen.hostOps1_3, Cert.KernelIdeal.Gen.hostOps1_4, Cert.KernelIdeal.Gen.hostOps1_5, Cert.KernelIdeal.Gen.hostOps1_6] c Cert.KernelIdeal.main_v53 :=
  tail_flags (exitK m c) (midR m' c) (leaf_v6 m m' c h2) (leaf_v12 m m' c h2) (leaf_cst m m' c h2)
    (leaf_pos m m' c h0 h1 h2) (leaf_mn m m' c h0 h1 h2)

end

end Cert.Bridge

end
-- ==== Proof.lean ====
/-
  The kernel computes, for each of 4096 predicted rows, the Euclidean distance to its 64 entities, keeps the
  distance to entity 0 and the smallest distance over the entities a mask selects, and then counts categories and
  per-threshold errors on the host; the reference computes the same two quantities with whole-array operations and
  runs the same accounting. At the ideal values the two pairs of results are equal:

  * each kernel result array holds, row by row, the specification's value (the grid's 32 blocks of 128 rows cover
    the array; a block's rows are computed from the same rows of the inputs), and so does each reference vector;
  * the kernel receives the mask as floats 0.0 / 1.0 and tests "> 1/2", which gives back the mask bit;
  * the mask glue before and the accounting after are the same operations in both programs, so equal inputs give
    equal outputs without any of them being opened.

  The frames of the two kernel programs are the generated ones; the reference's frame is its run, a straight line
  of host operations that writes no argument array; the idealization rewrote nothing.
-/
import proofs.«130048_j25366076850443_1_alg».proof.Defs
import proofs.«130048_j25366076850443_1_alg».proof.Proof.Gen.Kernel
import proofs.«130048_j25366076850443_1_alg».proof.Proof.Gen.Kernel.Skeleton
import proofs.«130048_j25366076850443_1_alg».proof.Proof.Gen.Kernel.Launch
import proofs.«130048_j25366076850443_1_alg».proof.Proof.Gen.Kernel.Points
import proofs.«130048_j25366076850443_1_alg».proof.Proof.Gen.Kernel.Frame
import proofs.«130048_j25366076850443_1_alg».proof.Proof.Gen.KernelIdeal
import proofs.«130048_j25366076850443_1_alg».proof.Proof.Gen.KernelIdeal.Skeleton
import proofs.«130048_j25366076850443_1_alg».proof.Proof.Gen.KernelIdeal.Launch
import proofs.«130048_j25366076850443_1_alg».proof.Proof.Gen.KernelIdeal.Points
import proofs.«130048_j25366076850443_1_alg».proof.Proof.Gen.KernelIdeal.Frame
import proofs.«130048_j25366076850443_1_alg».proof.Proof.Gen.ReferenceIdeal
import proofs.«130048_j25366076850443_1_alg».proof.Proof.Gen.Pre_finite_inputs
import proofs.«130048_j25366076850443_1_alg».proof.Proof.RefRun
import proofs.«130048_j25366076850443_1_alg».proof.Proof.Leaves
import proofs.«130048_j25366076850443_1_alg».proof.Proof.Results
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference runs, and its three lines write no argument array. -/
theorem frame_ri : Cert.frame_ReferenceIdeal := fun m ρ _ =>
  (θ_run Cert.ReferenceIdeal.defs _ _).mono (fun _ h c =>
    ⟨(h c Cert.ReferenceIdeal.main_arg0).trans (Cert.Bridge.ref_args _).1,
     (h c Cert.ReferenceIdeal.main_arg1).trans (Cert.Bridge.ref_args _).2.1,
     (h c Cert.ReferenceIdeal.main_arg2).trans (Cert.Bridge.ref_args _).2.2⟩)
    (Cert.ReferenceIdeal.Hand.run_all (F := Ideal) m ρ)

/-- Both idealized programs run, end with equal results — the kernel program's last line over the region's exit
    contents, which the reference's run reaches too — and leave their arguments unchanged. -/
theorem algebraic : Cert.algebraic_KernelIdeal_ReferenceIdeal := by
  intro m ρ m' ρ' _ hagree
  refine ⟨fun c => Pipeline.afterTail₀ Cert.KernelIdeal.cfgs (Cert.KernelIdeal.Gen.dats m) 0 (Cert.KernelIdeal.Gen.V0 m) [Cert.KernelIdeal.Gen.hostOps1, Cert.KernelIdeal.Gen.hostOps1_1, Cert.KernelIdeal.Gen.hostOps1_2, Cert.KernelIdeal.Gen.hostOps1_3, Cert.KernelIdeal.Gen.hostOps1_4, Cert.KernelIdeal.Gen.hostOps1_5, Cert.KernelIdeal.Gen.hostOps1_6] c Cert.KernelIdeal.main_v52,
    fun c => Pipeline.afterTail₀ Cert.KernelIdeal.cfgs (Cert.KernelIdeal.Gen.dats m) 0 (Cert.KernelIdeal.Gen.V0 m) [Cert.KernelIdeal.Gen.hostOps1, Cert.KernelIdeal.Gen.hostOps1_1, Cert.KernelIdeal.Gen.hostOps1_2, Cert.KernelIdeal.Gen.hostOps1_3, Cert.KernelIdeal.Gen.hostOps1_4, Cert.KernelIdeal.Gen.hostOps1_5, Cert.KernelIdeal.Gen.hostOps1_6] c Cert.KernelIdeal.main_v53, ?_, ?_⟩
  · refine (θ_run Cert.KernelIdeal.defs _ _).mono (fun r h c => ?_) (Cert.KernelIdeal.Gen.run_main m ρ)
    exact ⟨(h c).2 Cert.KernelIdeal.main_v52 (Pipeline.mem_restRefs_of Cert.KernelIdeal.main_v52 (by decide) (by decide)),
      (h c).2 Cert.KernelIdeal.main_v53 (Pipeline.mem_restRefs_of Cert.KernelIdeal.main_v53 (by decide) (by decide)),
      ((h c).1 0).trans (((Cert.KernelIdeal.Gen.dats m 0 c).arrAt_in 0 rfl _).trans ((Cert.KernelIdeal.Gen.A_eq m c 0).trans (Cert.KernelIdeal.Gen.V_main_arg0 m c))),
      ((h c).1 1).trans (((Cert.KernelIdeal.Gen.dats m 0 c).arrAt_in 1 rfl _).trans ((Cert.KernelIdeal.Gen.A_eq m c 1).trans (Cert.KernelIdeal.Gen.V_main_arg1 m c))),
      ((h c).2 Cert.KernelIdeal.main_arg2 (Pipeline.mem_restRefs_of Cert.KernelIdeal.main_arg2 (by decide) (by decide))).trans (Cert.KernelIdeal.Gen.W_main_arg2 m (Cert.KernelIdeal.Gen.dats m) c)⟩
  · refine (θ_run Cert.ReferenceIdeal.defs _ _).mono (fun r h c => ?_) (Cert.ReferenceIdeal.Hand.run_all (F := Ideal) m' ρ')
    obtain ⟨h0, h1, h2⟩ := hagree c
    exact ⟨(h c Cert.ReferenceIdeal.main_v58).trans (Cert.Bridge.result0 m m' c h0 h1 h2),
      (h c Cert.ReferenceIdeal.main_v59).trans (Cert.Bridge.result1 m m' c h0 h1 h2),
      (h c Cert.ReferenceIdeal.main_arg0).trans (Cert.Bridge.ref_args _).1,
      (h c Cert.ReferenceIdeal.main_arg1).trans (Cert.Bridge.ref_args _).2.1,
      (h c Cert.ReferenceIdeal.main_arg2).trans (Cert.Bridge.ref_args _).2.2⟩

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
